-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x40960x9 : Shape := ⟨3, ![16, 40960, 9]⟩
abbrev S16x24x2x3 : Shape := ⟨4, ![16, 24, 2, 3]⟩
abbrev S_ : Shape := ⟨0, ![]⟩

class Facts : Prop where
  bcast_S_S16x40960x9 : S_.BroadcastsInDim S16x40960x9 (![] : Fin 0 → Fin S16x40960x9.rank)
  reducesTo_S16x40960x9_S_d0_1_2 : S16x40960x9.ReducesTo [0, 1, 2] S_
  h_S_ : 0 < S_.numel
  bcast_S_S16x24x2x3 : S_.BroadcastsInDim S16x24x2x3 (![] : Fin 0 → Fin S16x24x2x3.rank)
  reducesTo_S16x24x2x3_S_d0_1_2_3 : S16x24x2x3.ReducesTo [0, 1, 2, 3] S_

variable [Facts]

def fn {F : FTy → Type} [FloatOps F] (main_arg0 : FVec F S16x40960x9 .f32) (main_arg1 : FVec F S16x24x2x3 .f32) (main_arg2 : FVec F S16x24x2x3 .f32) : IVec S_ 1 :=
  let main_v0 : FVec F S16x40960x9 .f32 := Host.absf main_arg0
  let main_cst : FVec F S_ .f32 := constant S_ .f32 0x7F800000#32
  let main_v1 : FVec F S16x40960x9 .f32 := broadcastInDim S16x40960x9 ![] bcast_S_S16x40960x9 main_cst
  let main_v2 : IVec S16x40960x9 1 := cmpf .olt main_v0 main_v1
  let main_c : IVec S_ 1 := constantI S_ 1 1#1
  let main_v3 : IVec S_ 1 := (fun x v => Host.reduce IntOp.andi x v reducesTo_S16x40960x9_S_d0_1_2 h_S_) main_v2 main_c
  let main_v4 : FVec F S16x24x2x3 .f32 := Host.absf main_arg1
  let main_cst_0 : FVec F S_ .f32 := constant S_ .f32 0x7F800000#32
  let main_v5 : FVec F S16x24x2x3 .f32 := broadcastInDim S16x24x2x3 ![] bcast_S_S16x24x2x3 main_cst_0
  let main_v6 : IVec S16x24x2x3 1 := cmpf .olt main_v4 main_v5
  let main_c_1 : IVec S_ 1 := constantI S_ 1 1#1
  let main_v7 : IVec S_ 1 := (fun x v => Host.reduce IntOp.andi x v reducesTo_S16x24x2x3_S_d0_1_2_3 h_S_) main_v6 main_c_1
  let main_v8 : IVec S_ 1 := andi main_v3 main_v7
  let main_v9 : FVec F S16x24x2x3 .f32 := Host.absf main_arg2
  let main_cst_2 : FVec F S_ .f32 := constant S_ .f32 0x7F800000#32
  let main_v10 : FVec F S16x24x2x3 .f32 := broadcastInDim S16x24x2x3 ![] bcast_S_S16x24x2x3 main_cst_2
  let main_v11 : IVec S16x24x2x3 1 := cmpf .olt main_v9 main_v10
  let main_c_3 : IVec S_ 1 := constantI S_ 1 1#1
  let main_v12 : IVec S_ 1 := (fun x v => Host.reduce IntOp.andi x v reducesTo_S16x24x2x3_S_d0_1_2_3 h_S_) main_v11 main_c_3
  let main_v13 : IVec S_ 1 := andi main_v8 main_v12
  main_v13
-- ==== Kernel.lean ====
abbrev S16x40960x9 : Shape := ⟨3, ![16, 40960, 9]⟩
abbrev S16x24x2x3 : Shape := ⟨4, ![16, 24, 2, 3]⟩
abbrev S16x24x4 : Shape := ⟨3, ![16, 24, 4]⟩
abbrev S1x8192x9 : Shape := ⟨3, ![1, 8192, 9]⟩
abbrev S1x24x2x3 : Shape := ⟨4, ![1, 24, 2, 3]⟩
abbrev S1x24x4 : Shape := ⟨3, ![1, 24, 4]⟩
abbrev S8192x9 : Shape := ⟨2, ![8192, 9]⟩
abbrev S8192x3 : Shape := ⟨2, ![8192, 3]⟩
abbrev S3x8192 : Shape := ⟨2, ![3, 8192]⟩
abbrev S24x2x3 : Shape := ⟨3, ![24, 2, 3]⟩
abbrev S24x1x3 : Shape := ⟨3, ![24, 1, 3]⟩
abbrev S24x3 : Shape := ⟨2, ![24, 3]⟩
abbrev S24x8192 : Shape := ⟨2, ![24, 8192]⟩
abbrev S1x8192 : Shape := ⟨2, ![1, 8192]⟩
abbrev S24x1 : Shape := ⟨2, ![24, 1]⟩
abbrev S24 : Shape := ⟨1, ![24]⟩
abbrev S24x4 : Shape := ⟨2, ![24, 4]⟩
abbrev S16x24x1 : Shape := ⟨3, ![16, 24, 1]⟩
abbrev S16x24 : Shape := ⟨2, ![16, 24]⟩
abbrev S16x24x6 : Shape := ⟨3, ![16, 24, 6]⟩
abbrev S_ : Shape := ⟨0, ![]⟩
abbrev S16x24x1x1 : Shape := ⟨4, ![16, 24, 1, 1]⟩
abbrev S16x24x1x3 : Shape := ⟨4, ![16, 24, 1, 3]⟩
abbrev S16x24x3 : Shape := ⟨3, ![16, 24, 3]⟩

abbrev nBuf : Space → Nat
  | .hbm => 81
  | .vmem => 8
  | .smem => 0
  | _ => 0

abbrev bufTy : (tb : Table) → Fin (tcTables nBuf tb) → BufTy
  | .hbm, ⟨0, _⟩ => ⟨S16x40960x9, .f32⟩
  | .hbm, ⟨1, _⟩ => ⟨S16x24x2x3, .f32⟩
  | .hbm, ⟨2, _⟩ => ⟨S16x24x2x3, .f32⟩
  | .hbm, ⟨3, _⟩ => ⟨S16x24x4, .f32⟩
  | .hbm, ⟨4, _⟩ => ⟨S16x24x1, .f32⟩
  | .hbm, ⟨5, _⟩ => ⟨S16x24, .f32⟩
  | .hbm, ⟨6, _⟩ => ⟨S16x24x1, .f32⟩
  | .hbm, ⟨7, _⟩ => ⟨S16x24, .f32⟩
  | .hbm, ⟨8, _⟩ => ⟨S16x24x1, .f32⟩
  | .hbm, ⟨9, _⟩ => ⟨S16x24, .f32⟩
  | .hbm, ⟨10, _⟩ => ⟨S16x24x1, .f32⟩
  | .hbm, ⟨11, _⟩ => ⟨S16x24, .f32⟩
  | .hbm, ⟨12, _⟩ => ⟨S16x24x6, .f32⟩
  | .hbm, ⟨13, _⟩ => ⟨S_, .f32⟩
  | .hbm, ⟨14, _⟩ => ⟨S16x24, .f32⟩
  | .hbm, ⟨15, _⟩ => ⟨S_, .f32⟩
  | .hbm, ⟨16, _⟩ => ⟨S16x24, .f32⟩
  | .hbm, ⟨17, _⟩ => ⟨S16x24, .i1⟩
  | .hbm, ⟨18, _⟩ => ⟨S16x24, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x24, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x24, .f32⟩
  | .hbm, ⟨28, _⟩ => ⟨S16x24, .f32⟩
  | .hbm, ⟨29, _⟩ => ⟨S16x24, .f32⟩
  | .hbm, ⟨30, _⟩ => ⟨S16x24, .f32⟩
  | .hbm, ⟨31, _⟩ => ⟨S_, .f32⟩
  | .hbm, ⟨32, _⟩ => ⟨S16x24, .f32⟩
  | .hbm, ⟨33, _⟩ => ⟨S16x24, .f32⟩
  | .hbm, ⟨34, _⟩ => ⟨S16x24, .f32⟩
  | .hbm, ⟨35, _⟩ => ⟨S16x24, .f32⟩
  | .hbm, ⟨36, _⟩ => ⟨S16x24, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x24x2x3, .f32⟩
  | .hbm, ⟨43, _⟩ => ⟨S16x24x2x3, .f32⟩
  | .hbm, ⟨44, _⟩ => ⟨S16x24x6, .f32⟩
  | .hbm, ⟨45, _⟩ => ⟨S_, .f32⟩
  | .hbm, ⟨46, _⟩ => ⟨S16x24, .f32⟩
  | .hbm, ⟨47, _⟩ => ⟨S_, .f32⟩
  | .hbm, ⟨48, _⟩ => ⟨S16x24, .f32⟩
  | .hbm, ⟨49, _⟩ => ⟨S16x24, .f32⟩
  | .hbm, ⟨50, _⟩ => ⟨S16x24, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x24, .f32⟩
  | .hbm, ⟨58, _⟩ => ⟨S16x24, .f32⟩
  | .hbm, ⟨59, _⟩ => ⟨S16x24x1x1, .f32⟩
  | .hbm, ⟨60, _⟩ => ⟨S16x24x2x3, .f32⟩
  | .hbm, ⟨61, _⟩ => ⟨S16x24x2x3, .f32⟩
  | .hbm, ⟨62, _⟩ => ⟨S16x24x1x3, .f32⟩
  | .hbm, ⟨63, _⟩ => ⟨S16x24x3, .f32⟩
  | .hbm, ⟨64, _⟩ => ⟨S16x24x1x3, .f32⟩
  | .hbm, ⟨65, _⟩ => ⟨S16x24x3, .f32⟩
  | .hbm, ⟨66, _⟩ => ⟨S16x24x3, .f32⟩
  | .hbm, ⟨67, _⟩ => ⟨S16x24x3, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x24, .f32⟩
  | .hbm, ⟨72, _⟩ => ⟨S16x24, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x8192x9, .f32⟩
  | .local _ .vmem, ⟨1, _⟩ => ⟨S1x8192x9, .f32⟩
  | .local _ .vmem, ⟨2, _⟩ => ⟨S1x24x2x3, .f32⟩
  | .local _ .vmem, ⟨3, _⟩ => ⟨S1x24x2x3, .f32⟩
  | .local _ .vmem, ⟨4, _⟩ => ⟨S1x24x2x3, .f32⟩
  | .local _ .vmem, ⟨5, _⟩ => ⟨S1x24x2x3, .f32⟩
  | .local _ .vmem, ⟨6, _⟩ => ⟨S1x24x4, .f32⟩
  | .local _ .vmem, ⟨7, _⟩ => ⟨S1x24x4, .f32⟩
  | _, _ => ⟨S16x40960x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_cst_13 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x2x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x24x2x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x24x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x24x4_S1x24x4_0_0_0 : ∀ a, (![0, 0, 0] : Fin 3 → Nat) a + S1x24x4.size a ≤ S1x24x4.size a
  h_S1x24x4 : 0 < S1x24x4.numel
  inb_S1x8192x9_S1x8192x9_0_0_0 : ∀ a, (![0, 0, 0] : Fin 3 → Nat) a + S1x8192x9.size a ≤ S1x8192x9.size a
  h_S1x8192x9 : 0 < S1x8192x9.numel
  shapeCasts_S1x8192x9_S8192x9 : S1x8192x9.ShapeCasts S8192x9
  slices_S8192x9_o0_0_S8192x3 : S8192x9.Slices ![0, 0] S8192x3
  transposes_S8192x3_p1_0_S3x8192 : S8192x3.Transposes [1, 0] S3x8192
  inb_S1x24x2x3_S1x24x2x3_0_0_0_0 : ∀ a, (![0, 0, 0, 0] : Fin 4 → Nat) a + S1x24x2x3.size a ≤ S1x24x2x3.size a
  h_S1x24x2x3 : 0 < S1x24x2x3.numel
  shapeCasts_S1x24x2x3_S24x2x3 : S1x24x2x3.ShapeCasts S24x2x3
  slices_S24x2x3_o0_0_0_S24x1x3 : S24x2x3.Slices ![0, 0, 0] S24x1x3
  shapeCasts_S24x1x3_S24x3 : S24x1x3.ShapeCasts S24x3
  slices_S24x2x3_o0_1_0_S24x1x3 : S24x2x3.Slices ![0, 1, 0] S24x1x3
  slices_S3x8192_o0_0_S1x8192 : S3x8192.Slices ![0, 0] S1x8192
  slices_S24x3_o0_0_S24x1 : S24x3.Slices ![0, 0] S24x1
  broadcasts_S24x1_S24x8192 : S24x1.Broadcasts S24x8192
  broadcasts_S1x8192_S24x8192 : S1x8192.Broadcasts S24x8192
  natLt_1_32 : 1 < 32
  slices_S3x8192_o1_0_S1x8192 : S3x8192.Slices ![1, 0] S1x8192
  slices_S24x3_o0_1_S24x1 : S24x3.Slices ![0, 1] S24x1
  slices_S3x8192_o2_0_S1x8192 : S3x8192.Slices ![2, 0] S1x8192
  slices_S24x3_o0_2_S24x1 : S24x3.Slices ![0, 2] S24x1
  reduces_S24x8192_S24 : S24x8192.Reduces [1] S24
  shapeCasts_S24_S24x1 : S24.ShapeCasts S24x1
  concatenates_S24x1_S24x1_S24x1_S24x1_S24x4_d1 : Shape.Concatenates [S24x1, S24x1, S24x1, S24x1] S24x4 1
  shapeCasts_S1x24x4_S24x4 : S1x24x4.ShapeCasts S24x4
  shapeCasts_S24x4_S1x24x4 : S24x4.ShapeCasts S1x24x4
  slices_S16x24x4_S16x24x1_0_0_0 : S16x24x4.Slices ![0, 0, 0] S16x24x1
  shapeCasts_S16x24x1_S16x24 : S16x24x1.ShapeCasts S16x24
  slices_S16x24x4_S16x24x1_0_0_1 : S16x24x4.Slices ![0, 0, 1] S16x24x1
  slices_S16x24x4_S16x24x1_0_0_2 : S16x24x4.Slices ![0, 0, 2] S16x24x1
  slices_S16x24x4_S16x24x1_0_0_3 : S16x24x4.Slices ![0, 0, 3] S16x24x1
  shapeCasts_S16x24x2x3_S16x24x6 : S16x24x2x3.ShapeCasts S16x24x6
  reducesTo_S16x24x6_S16x24_d2 : S16x24x6.ReducesTo [2] S16x24
  h_S_ : 0 < S_.numel
  bcast_S_S16x24 : S_.BroadcastsInDim S16x24 (![] : Fin 0 → Fin S16x24.rank)
  reducesTo_S16x24_S_d0_1 : S16x24.ReducesTo [0, 1] S_
  bcast_S16x24_S16x24x1x1_0_1 : S16x24.BroadcastsInDim S16x24x1x1 (![0, 1] : Fin 2 → Fin S16x24x1x1.rank)
  bcast_S16x24x1x1_S16x24x2x3_0_1_2_3 : S16x24x1x1.BroadcastsInDim S16x24x2x3 (![0, 1, 2, 3] : Fin 4 → Fin S16x24x2x3.rank)
  slices_S16x24x2x3_S16x24x1x3_0_0_0_0 : S16x24x2x3.Slices ![0, 0, 0, 0] S16x24x1x3
  shapeCasts_S16x24x1x3_S16x24x3 : S16x24x1x3.ShapeCasts S16x24x3
  slices_S16x24x2x3_S16x24x1x3_0_0_1_0 : S16x24x2x3.Slices ![0, 0, 1, 0] S16x24x1x3
  reducesTo_S16x24x3_S_d0_1_2 : S16x24x3.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x9.size a ≤ S16x40960x9.size a
  hwx0_0 : ∀ i : grid0.Coords, EltTy.bits .f32 = 32 ∨ (Rect.block (s := S16x40960x9) S1x8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x2x3.size a ≤ S16x24x2x3.size a
  hwx0_1 : ∀ i : grid0.Coords, EltTy.bits .f32 = 32 ∨ (Rect.block (s := S16x24x2x3) S1x24x2x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24x2x3.size a ≤ S16x24x2x3.size a
  hwx0_2 : ∀ i : grid0.Coords, EltTy.bits .f32 = 32 ∨ (Rect.block (s := S16x24x2x3) S1x24x2x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x4.size a ≤ S16x24x4.size a
  hwx0_3 : ∀ i : grid0.Coords, EltTy.bits .f32 = 32 ∨ (Rect.block (s := S16x24x4) S1x24x4.size (cc0_transform_3 i) (hinb0_3 i)).WholeWords (EltTy.packing .f32)

variable [Facts₀]

abbrev win0_0 : Pipeline.Window sig grid0 :=
  Pipeline.Window.ofSpec (Memref.whole main_arg0) S1x8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x24x2x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x24x2x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x24x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x40960x9 : Shape := ⟨3, ![16, 40960, 9]⟩
abbrev S16x24x2x3 : Shape := ⟨4, ![16, 24, 2, 3]⟩
abbrev S16x40960x3 : Shape := ⟨3, ![16, 40960, 3]⟩
abbrev S16x1x40960x3 : Shape := ⟨4, ![16, 1, 40960, 3]⟩
abbrev S16x24x1x3 : Shape := ⟨4, ![16, 24, 1, 3]⟩
abbrev S16x24x3 : Shape := ⟨3, ![16, 24, 3]⟩
abbrev S16x24x40960x3 : Shape := ⟨4, ![16, 24, 40960, 3]⟩
abbrev S_ : Shape := ⟨0, ![]⟩
abbrev S16x24x40960 : Shape := ⟨3, ![16, 24, 40960]⟩
abbrev S16x24x6 : Shape := ⟨3, ![16, 24, 6]⟩
abbrev S16x24 : Shape := ⟨2, ![16, 24]⟩
abbrev S16x24x1 : Shape := ⟨3, ![16, 24, 1]⟩
abbrev S16x24x1x1 : Shape := ⟨4, ![16, 24, 1, 1]⟩

abbrev nBuf : Space → Nat
  | .hbm => 161
  | .vmem => 0
  | .smem => 0
  | _ => 0

abbrev hbmTy0_0 (i : Nat) : BufTy := match i % 128 with
  | 0 => ⟨S16x40960x9, .f32⟩
  | 1 => ⟨S16x24x2x3, .f32⟩
  | 2 => ⟨S16x24x2x3, .f32⟩
  | 3 => ⟨S16x40960x3, .f32⟩
  | 4 => ⟨S16x1x40960x3, .f32⟩
  | 5 => ⟨S16x24x1x3, .f32⟩
  | 6 => ⟨S16x24x3, .f32⟩
  | 7 => ⟨S16x24x1x3, .f32⟩
  | 8 => ⟨S16x24x1x3, .f32⟩
  | 9 => ⟨S16x24x3, .f32⟩
  | 10 => ⟨S16x24x1x3, .f32⟩
  | 11 => ⟨S16x24x40960x3, .f32⟩
  | 12 => ⟨S16x24x40960x3, .f32⟩
  | 13 => ⟨S16x24x40960x3, .f32⟩
  | 14 => ⟨S16x24x40960x3, .f32⟩
  | 15 => ⟨S16x24x40960x3, .f32⟩
  | 16 => ⟨S16x24x40960x3, .f32⟩
  | 17 => ⟨S16x24x40960x3, .f32⟩
  | 18 => ⟨S_, .f32⟩
  | 19 => ⟨S16x24x40960x3, .f32⟩
  | 20 => ⟨S16x24x40960x3, .i1⟩
  | 21 => ⟨S16x24x40960x3, .f32⟩
  | 22 => ⟨S_, .f32⟩
  | 23 => ⟨S16x24x40960, .f32⟩
  | 24 => ⟨S_, .f32⟩
  | 25 => ⟨S16x24x40960, .f32⟩
  | 26 => ⟨S16x24x40960, .f32⟩
  | 27 => ⟨S_, .f32⟩
  | 28 => ⟨S16x24x40960, .f32⟩
  | 29 => ⟨S16x24x40960, .i1⟩
  | 30 => ⟨S16x24x40960, .f32⟩
  | 31 => ⟨S16x24x1x3, .f32⟩
  | 32 => ⟨S16x24x3, .f32⟩
  | 33 => ⟨S16x24x1x3, .f32⟩
  | 34 => ⟨S16x24x1x3, .f32⟩
  | 35 => ⟨S16x24x3, .f32⟩
  | 36 => ⟨S16x24x1x3, .f32⟩
  | 37 => ⟨S16x24x40960x3, .f32⟩
  | 38 => ⟨S16x24x40960x3, .f32⟩
  | 39 => ⟨S16x24x40960x3, .f32⟩
  | 40 => ⟨S_, .f32⟩
  | 41 => ⟨S16x24x40960x3, .f32⟩
  | 42 => ⟨S16x24x40960x3, .f32⟩
  | 43 => ⟨S16x24x40960x3, .f32⟩
  | 44 => ⟨S16x24x40960x3, .f32⟩
  | 45 => ⟨S16x24x40960x3, .f32⟩
  | 46 => ⟨S16x24x40960x3, .f32⟩
  | 47 => ⟨S_, .f32⟩
  | 48 => ⟨S_, .f32⟩
  | 49 => ⟨S_, .f32⟩
  | 50 => ⟨S16x24x40960x3, .f32⟩
  | 51 => ⟨S16x24x40960x3, .f32⟩
  | 52 => ⟨S_, .f32⟩
  | 53 => ⟨S16x24x40960x3, .f32⟩
  | 54 => ⟨S16x24x40960x3, .f32⟩
  | 55 => ⟨S16x24x40960x3, .f32⟩
  | 56 => ⟨S16x24x40960x3, .f32⟩
  | 57 => ⟨S_, .f32⟩
  | 58 => ⟨S16x24x40960x3, .f32⟩
  | 59 => ⟨S16x24x40960x3, .f32⟩
  | 60 => ⟨S_, .f32⟩
  | 61 => ⟨S16x24x40960x3, .f32⟩
  | 62 => ⟨S16x24x40960x3, .f32⟩
  | 63 => ⟨S_, .f32⟩
  | 64 => ⟨S16x24x40960, .f32⟩
  | 65 => ⟨S16x24x6, .f32⟩
  | 66 => ⟨S_, .f32⟩
  | 67 => ⟨S16x24, .f32⟩
  | 68 => ⟨S_, .f32⟩
  | 69 => ⟨S16x24, .f32⟩
  | 70 => ⟨S16x24, .i1⟩
  | 71 => ⟨S16x24, .f32⟩
  | 72 => ⟨S16x24x40960, .f32⟩
  | 73 => ⟨S_, .f32⟩
  | 74 => ⟨S16x24x40960, .f32⟩
  | 75 => ⟨S16x24x40960, .f32⟩
  | 76 => ⟨S16x24x40960, .f32⟩
  | 77 => ⟨S16x24x40960, .f32⟩
  | 78 => ⟨S_, .f32⟩
  | 79 => ⟨S16x24x40960, .f32⟩
  | 80 => ⟨S16x24x40960, .f32⟩
  | 81 => ⟨S_, .f32⟩
  | 82 => ⟨S16x24x40960, .f32⟩
  | 83 => ⟨S16x24x40960, .f32⟩
  | 84 => ⟨S_, .f32⟩
  | 85 => ⟨S16x24x40960, .f32⟩
  | 86 => ⟨S16x24x40960, .f32⟩
  | 87 => ⟨S16x24x40960, .f32⟩
  | 88 => ⟨S16x24x40960, .f32⟩
  | 89 => ⟨S16x24x40960, .f32⟩
  | 90 => ⟨S_, .f32⟩
  | 91 => ⟨S_, .f32⟩
  | 92 => ⟨S_, .f32⟩
  | 93 => ⟨S_, .f32⟩
  | 94 => ⟨S16x24x1, .f32⟩
  | 95 => ⟨S16x24x40960, .f32⟩
  | 96 => ⟨S16x24x40960, .f32⟩
  | 97 => ⟨S_, .f32⟩
  | 98 => ⟨S_, .f32⟩
  | 99 => ⟨S_, .f32⟩
  | 100 => ⟨S16x24x40960, .f32⟩
  | 101 => ⟨S_, .f32⟩
  | 102 => ⟨S16x24, .f32⟩
  | 103 => ⟨S_, .f32⟩
  | 104 => ⟨S16x24, .f32⟩
  | 105 => ⟨S16x24, .f32⟩
  | 106 => ⟨S_, .f32⟩
  | 107 => ⟨S16x24, .f32⟩
  | 108 => ⟨S16x24, .f32⟩
  | 109 => ⟨S16x24, .f32⟩
  | 110 => ⟨S16x24, .f32⟩
  | 111 => ⟨S_, .f32⟩
  | 112 => ⟨S16x24, .f32⟩
  | 113 => ⟨S16x24, .f32⟩
  | 114 => ⟨S16x24, .f32⟩
  | 115 => ⟨S16x24, .f32⟩
  | 116 => ⟨S16x24, .f32⟩
  | 117 => ⟨S_, .f32⟩
  | 118 => ⟨S_, .f32⟩
  | 119 => ⟨S_, .f32⟩
  | 120 => ⟨S_, .f32⟩
  | 121 => ⟨S_, .f32⟩
  | 122 => ⟨S16x24x2x3, .f32⟩
  | 123 => ⟨S16x24x2x3, .f32⟩
  | 124 => ⟨S16x24x6, .f32⟩
  | 125 => ⟨S_, .f32⟩
  | 126 => ⟨S16x24, .f32⟩
  | 127 => ⟨S_, .f32⟩
  | _ => ⟨S16x40960x9, .f32⟩

abbrev hbmTy0_1 (i : Nat) : BufTy := match i % 128 with
  | 0 => ⟨S16x24, .f32⟩
  | 1 => ⟨S16x24, .f32⟩
  | 2 => ⟨S16x24, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S16x24, .f32⟩
  | 10 => ⟨S16x24, .f32⟩
  | 11 => ⟨S16x24x1x1, .f32⟩
  | 12 => ⟨S16x24x2x3, .f32⟩
  | 13 => ⟨S16x24x2x3, .f32⟩
  | 14 => ⟨S16x24x1x3, .f32⟩
  | 15 => ⟨S16x24x3, .f32⟩
  | 16 => ⟨S16x24x1x3, .f32⟩
  | 17 => ⟨S16x24x3, .f32⟩
  | 18 => ⟨S16x24x3, .f32⟩
  | 19 => ⟨S16x24x3, .f32⟩
  | 20 => ⟨S_, .f32⟩
  | 21 => ⟨S_, .f32⟩
  | 22 => ⟨S_, .f32⟩
  | 23 => ⟨S16x24, .f32⟩
  | 24 => ⟨S16x24, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S16x40960x9, .f32⟩

abbrev hbmTy (i : Nat) : BufTy := match i / 128 with
  | 0 => hbmTy0_0 i
  | 1 => hbmTy0_1 i
  | _ => ⟨S16x40960x9, .f32⟩

abbrev bufTy : (tb : Table) → Fin (tcTables nBuf tb) → BufTy
  | .hbm, ⟨i, _⟩ => hbmTy i
  | _, _ => ⟨S16x40960x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_22 : Ref sig .tc := ⟨.hbm, 117, rfl⟩
abbrev main_v86 : Ref sig .tc := ⟨.hbm, 118, rfl⟩
abbrev main_cst_23 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_24 : Ref sig .tc := ⟨.hbm, 125, rfl⟩
abbrev main_v92 : Ref sig .tc := ⟨.hbm, 126, rfl⟩
abbrev main_cst_25 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_26 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_cst_28 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_29 : Ref sig .tc := ⟨.hbm, 148, rfl⟩
abbrev main_v110 : Ref sig .tc := ⟨.hbm, 149, rfl⟩
abbrev main_cst_30 : Ref sig .tc := ⟨.hbm, 150, rfl⟩
abbrev main_v111 : Ref sig .tc := ⟨.hbm, 151, rfl⟩
abbrev main_v112 : Ref sig .tc := ⟨.hbm, 152, rfl⟩
abbrev main_cst_31 : Ref sig .tc := ⟨.hbm, 153, rfl⟩
abbrev main_v113 : Ref sig .tc := ⟨.hbm, 154, rfl⟩
abbrev main_cst_32 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]

class Facts₀ : Prop where
  slices_S16x40960x9_S16x40960x3_0_0_0 : S16x40960x9.Slices ![0, 0, 0] S16x40960x3
  bcast_S16x40960x3_S16x1x40960x3_0_2_3 : S16x40960x3.BroadcastsInDim S16x1x40960x3 (![0, 2, 3] : Fin 3 → Fin S16x1x40960x3.rank)
  slices_S16x24x2x3_S16x24x1x3_0_0_0_0 : S16x24x2x3.Slices ![0, 0, 0, 0] S16x24x1x3
  shapeCasts_S16x24x1x3_S16x24x3 : S16x24x1x3.ShapeCasts S16x24x3
  bcast_S16x24x3_S16x24x1x3_0_1_3 : S16x24x3.BroadcastsInDim S16x24x1x3 (![0, 1, 3] : Fin 3 → Fin S16x24x1x3.rank)
  slices_S16x24x2x3_S16x24x1x3_0_0_1_0 : S16x24x2x3.Slices ![0, 0, 1, 0] S16x24x1x3
  bcast_S16x24x1x3_S16x24x40960x3_0_1_2_3 : S16x24x1x3.BroadcastsInDim S16x24x40960x3 (![0, 1, 2, 3] : Fin 4 → Fin S16x24x40960x3.rank)
  bcast_S16x1x40960x3_S16x24x40960x3_0_1_2_3 : S16x1x40960x3.BroadcastsInDim S16x24x40960x3 (![0, 1, 2, 3] : Fin 4 → Fin S16x24x40960x3.rank)
  bcast_S_S16x24x40960x3 : S_.BroadcastsInDim S16x24x40960x3 (![] : Fin 0 → Fin S16x24x40960x3.rank)
  reducesTo_S16x24x40960x3_S16x24x40960_d3 : S16x24x40960x3.ReducesTo [3] S16x24x40960
  h_S_ : 0 < S_.numel
  bcast_S_S16x24x40960 : S_.BroadcastsInDim S16x24x40960 (![] : Fin 0 → Fin S16x24x40960.rank)
  shapeCasts_S16x24x2x3_S16x24x6 : S16x24x2x3.ShapeCasts S16x24x6
  reducesTo_S16x24x6_S16x24_d2 : S16x24x6.ReducesTo [2] S16x24
  bcast_S_S16x24 : S_.BroadcastsInDim S16x24 (![] : Fin 0 → Fin S16x24.rank)
  reducesTo_S16x24_S_d0_1 : S16x24.ReducesTo [0, 1] S_
  bcast_S16x24_S16x24x1_0_1 : S16x24.BroadcastsInDim S16x24x1 (![0, 1] : Fin 2 → Fin S16x24x1.rank)
  bcast_S16x24x1_S16x24x40960_0_1_2 : S16x24x1.BroadcastsInDim S16x24x40960 (![0, 1, 2] : Fin 3 → Fin S16x24x40960.rank)
  reducesTo_S16x24x40960_S_d0_1_2 : S16x24x40960.ReducesTo [0, 1, 2] S_
  reducesTo_S16x24x40960_S16x24_d2 : S16x24x40960.ReducesTo [2] S16x24
  bcast_S16x24_S16x24x1x1_0_1 : S16x24.BroadcastsInDim S16x24x1x1 (![0, 1] : Fin 2 → Fin S16x24x1x1.rank)
  bcast_S16x24x1x1_S16x24x2x3_0_1_2_3 : S16x24x1x1.BroadcastsInDim S16x24x2x3 (![0, 1, 2, 3] : Fin 4 → Fin S16x24x2x3.rank)
  reducesTo_S16x24x3_S_d0_1_2 : S16x24x3.ReducesTo [0, 1, 2] S_

variable [Facts₀]

class Facts : Prop extends Facts₀ where

variable [Facts]
-- ==== Proof.KShared.lean ====
/-
  The frame of the program `Cert.Kernel`, first part: what the two control cases of the kernel body share.

  @main is one pipelined region followed by 77 host operations. The region walks a 16 x 5 grid: point t = 5 b + j works on
  batch b and on tile j of the 40960 points (8192 points a tile). The three inputs are staged block by block (the
  point block [b, 8192 j .. 8192 j + 8191, 0..8], and the two box blocks [b, 0..23, 0..1, 0..2], which do not move
  while b stays), and the output block [b, 0..23, 0..3] is an accumulator: the body clears it at j = 0, adds the tile's
  four row sums to it at every j, and the pipeline writes it back after j = 4.

  Stated here: the buffers as the region finds them (nothing runs before it); @main as the region continued by the 77
  later operations, which touch only unscoped buffers, allocate nothing and write none of the four arrays of the
  pipeline; every input window's staging buffer holding its block at every point, fetched there or not; the branch
  condition of the body, decided over the 80 points in closed form (t mod 5 = 0); and that a run to the pipeline's
  frame post keeps the three argument arrays.
-/
import proofs.«176227_j76828374991464_1_alg».proof.Proof.Gen.Kernel.Launch
import proofs.«176227_j76828374991464_1_alg».proof.Proof.Gen.Kernel.Skeleton
import proofs.«176227_j76828374991464_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- every statement over the 77-operation list is past the default budget to elaborate
set_option maxHeartbeats 40000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch contents (no host operation precedes the region). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

set_option maxHeartbeats 40000000 in
/-- None of the 77 later operations allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main is the region continued by the 77 later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch unscoped TensorCore buffers only: each is an array of the pipeline or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each of the 77 writes its own result buffer, which is none of the pipeline's four arrays (the three arguments and
    the kernel's result): one conjunct per operation, each decided on the buffers' numbers. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.nullary_writes, StableHlo.unary_writes, StableHlo.binary_writes, StableHlo.reshape_writes,
        Finset.mem_singleton] <;>
      exact StableHlo.devRef_ne_of_ne (by decide)

/-- And so they write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point window's staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The ground-truth box window's staging buffer holds its block at every point: fetched when the batch changes, and
    between two fetches the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The predicted box window's, likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the pipeline's frame post, read after the later operations, keeps the three argument arrays: each is a
    staged input of the region, which the region leaves as found, and no later operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).1 1).trans (((dats 0 c).arrAt_in 1 rfl _).trans ((hA c 1).trans (V_main_arg2 m c)))⟩) h

/-! ## The body's branch condition -/

/-- The body clears the accumulator when the tile coordinate is zero. -/
abbrev cond0_0 (i : grid0.Coords) : Prop := (Scalar.cmpi .ne (Scalar.extui (Scalar.cmpi .eq (BitVec.ofNat 32 (i 1).val) 0#32)) 0#32) = 1#1
/-- That is at the points 5 b: decided over the 80 points. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs at a point -/

/-- One staging buffer of the output window, through which its contents are stated. -/
abbrev VO0_3 : View sig .tc .vmem S1x24x4 .f32 := (Memref.whole cc0_stg3_0 : Memref sig .tc .vmem S1x24x4 .f32).view
abbrev ms0_0 (t : Fin cfg0.N) : Memref sig .tc .vmem S1x8192x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x24x2x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x2x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x24x4 .f32 := win0_3.stage (cfg0.slots t 3)
abbrev hs0_3 (t : Fin cfg0.N) : (ms0_3 t).IsWhole := hstage0_3 ((cfg0.slots t 3).cast nbuf0_3)

end Cert.Kernel.Fr

end
-- ==== Proof.KRunA.lean ====
/-
  The kernel body of `Cert.Kernel` run whole at a point where the tile coordinate is zero (the first tile of a batch).

  There the body first stores zeros over the whole output block, then loads the three input blocks, computes the
  tile's four row sums, reads the output block back (the zeros it just stored), adds, and stores the block whole
  again. The inputs' staging buffers are handed back as found; the output's buffer may hold anything on entry (the one
  load before the clearing store reads a value nothing uses). What the output's buffer ends with is recorded as the
  list of pieces stored, latest first, which the symbolic run finds.
-/
import proofs.«176227_j76828374991464_1_alg».proof.Proof.KShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first tile: the pieces the output block ends with, and the run. -/
noncomputable def kernelRun0_A (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) :
    { L3 : List (View.Piece (Elt F) S1x24x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.KRunB.lean ====
/-
  The kernel body of `Cert.Kernel` run whole at a point where the tile coordinate is not zero (tiles 1 to 4 of a batch).

  There the body skips the clearing store: it loads the three input blocks, computes the tile's four row sums, reads
  the output block — what the tile before left there —, adds, and stores the block whole. The output's running
  contents are therefore a parameter of the run.
-/
import proofs.«176227_j76828374991464_1_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later tile: the pieces the output block ends with, and the run. -/
noncomputable def kernelRun0_B (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) :
    { L3 : List (View.Piece (Elt F) S1x24x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.KFrame.lean ====
/-
  The frame of the program `Cert.Kernel`, last part: the accumulator point by point, the proof data of the pipeline,
  the body obligation, the run of @main and the frame.

  What the output block's staging buffer holds after the body at point t is defined by recursion on t: at a first
  tile (t mod 5 = 0) what the clearing run leaves, from the three input blocks alone; at a later tile what the adding
  run leaves, from the three input blocks and what point t - 1 left — the buffer is not written back between two
  tiles of one batch (the write-back comes after tile 4), so the body finds it as the point before left it. The
  inputs' buffers hold their blocks at every point. With that the body's two runs discharge the pipeline's obligation
  at every point, the launch theorem for a region followed by host operations gives the run of @main, and the run's
  post, read at the three arguments, is the frame.
-/
import proofs.«176227_j76828374991464_1_alg».proof.Proof.KRunB

set_option maxRecDepth 16384
-- every statement over the 77-operation list is past the default budget to elaborate
set_option maxHeartbeats 40000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first tile the stores cover the output block (two stores of the whole block). -/
theorem cover0_A_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) (y : S1x24x4.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x24x4.size (by sl_kernel_rfl) y

/-- What a first tile leaves in the output block's buffer. -/
def out0_A_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) : Vec F S1x24x4 .f32 :=
  VO0_3.read (Elt F) (VO0_3.writes (Elt F) VO0_3.junk (kernelRun0_A c i arg2 harg2 arg3 harg3 arg4 harg4 arg5 harg5 hc0 x0 x1 x2).1)

/-- At a later tile the one store covers the output block. -/
theorem cover0_B_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) (y : S1x24x4.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x24x4.size (by sl_kernel_rfl) y

/-- What a later tile leaves in the output block's buffer, over what it found there. -/
def out0_B_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) : Vec F S1x24x4 .f32 :=
  VO0_3.read (Elt F) (VO0_3.writes (Elt F) VO0_3.junk (kernelRun0_B c i arg2 harg2 arg3 harg3 arg4 harg4 arg5 harg5 hc0 x0 x1 x2 xo3).1)

/-! ## The accumulator, point by point -/

/-- What the output block's buffer holds after the body at position `n` of the grid. -/
def outsAt0 (c : Dev nD) : (n : ℕ) → n < cfg0.N → Vec F S1x24x4 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 5 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first tile: the clearing run's contents. -/
theorem outsAt0_A (c : Dev nD) (t : Fin cfg0.N) (h0 : t.val % 5 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later tile: the adding run's contents, over what the point before left. -/
theorem outsAt0_B (c : Dev nD) (t : Fin cfg0.N) (h0 : ¬t.val % 5 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at the accumulator; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the output's buffer holds what the body left at the point before: the point is not the first, and
    the buffer was not written back between (a write-back follows tile 4 only, and the point before a later tile is
    tile 0, 1, 2 or 3). -/
theorem before0_3_B (c : Dev nD) (t : Fin cfg0.N) (h0 : ¬t.val % 5 = 0) (d) :
    (dats m 0 c).before 3 t d = (outsAt0 m c (t.val - 1) (Nat.lt_of_le_of_lt (Nat.sub_le _ _) t.isLt)) := by
  have hN : t.val < 80 := lt_of_lt_of_eq t.isLt (show cfg0.N = 80 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point is a first tile or a later one; at a later
    tile the output's buffer holds what the point before left; so the matching run applies, and what its stores leave,
    read back, is the accumulator's value at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 80 := lt_of_lt_of_eq t.isLt (show cfg0.N = 80 from N_0)
  by_cases h0 : t.val % 5 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the proof data computes and every other unscoped buffer at what
    the 77 later operations leave, run from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end without a fault and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KIShared.lean ====
/-
  The frame of the program `Cert.KernelIdeal`, first part: what the two control cases of the kernel body share.

  @main is one pipelined region followed by 77 host operations. The region walks a 16 x 5 grid: point t = 5 b + j works on
  batch b and on tile j of the 40960 points (8192 points a tile). The three inputs are staged block by block (the
  point block [b, 8192 j .. 8192 j + 8191, 0..8], and the two box blocks [b, 0..23, 0..1, 0..2], which do not move
  while b stays), and the output block [b, 0..23, 0..3] is an accumulator: the body clears it at j = 0, adds the tile's
  four row sums to it at every j, and the pipeline writes it back after j = 4.

  Stated here: the buffers as the region finds them (nothing runs before it); @main as the region continued by the 77
  later operations, which touch only unscoped buffers, allocate nothing and write none of the four arrays of the
  pipeline; every input window's staging buffer holding its block at every point, fetched there or not; the branch
  condition of the body, decided over the 80 points in closed form (t mod 5 = 0); and that a run to the pipeline's
  frame post keeps the three argument arrays.
-/
import proofs.«176227_j76828374991464_1_alg».proof.Proof.Gen.KernelIdeal.Launch
import proofs.«176227_j76828374991464_1_alg».proof.Proof.Gen.KernelIdeal.Skeleton
import proofs.«176227_j76828374991464_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- every statement over the 77-operation list is past the default budget to elaborate
set_option maxHeartbeats 40000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch contents (no host operation precedes the region). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

set_option maxHeartbeats 40000000 in
/-- None of the 77 later operations allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main is the region continued by the 77 later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later operations touch unscoped TensorCore buffers only: each is an array of the pipeline or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each of the 77 writes its own result buffer, which is none of the pipeline's four arrays (the three arguments and
    the kernel's result): one conjunct per operation, each decided on the buffers' numbers. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.nullary_writes, StableHlo.unary_writes, StableHlo.binary_writes, StableHlo.reshape_writes,
        Finset.mem_singleton] <;>
      exact StableHlo.devRef_ne_of_ne (by decide)

/-- And so they write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point window's staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The ground-truth box window's staging buffer holds its block at every point: fetched when the batch changes, and
    between two fetches the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The predicted box window's, likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the pipeline's frame post, read after the later operations, keeps the three argument arrays: each is a
    staged input of the region, which the region leaves as found, and no later operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).1 1).trans (((dats 0 c).arrAt_in 1 rfl _).trans ((hA c 1).trans (V_main_arg2 m c)))⟩) h

/-! ## The body's branch condition -/

/-- The body clears the accumulator when the tile coordinate is zero. -/
abbrev cond0_0 (i : grid0.Coords) : Prop := (Scalar.cmpi .ne (Scalar.extui (Scalar.cmpi .eq (BitVec.ofNat 32 (i 1).val) 0#32)) 0#32) = 1#1
/-- That is at the points 5 b: decided over the 80 points. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs at a point -/

/-- One staging buffer of the output window, through which its contents are stated. -/
abbrev VO0_3 : View sig .tc .vmem S1x24x4 .f32 := (Memref.whole cc0_stg3_0 : Memref sig .tc .vmem S1x24x4 .f32).view
abbrev ms0_0 (t : Fin cfg0.N) : Memref sig .tc .vmem S1x8192x9 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x24x2x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x2x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x24x4 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KIRunA.lean ====
/-
  The kernel body of `Cert.KernelIdeal` run whole at a point where the tile coordinate is zero (the first tile of a batch).

  There the body first stores zeros over the whole output block, then loads the three input blocks, computes the
  tile's four row sums, reads the output block back (the zeros it just stored), adds, and stores the block whole
  again. The inputs' staging buffers are handed back as found; the output's buffer may hold anything on entry (the one
  load before the clearing store reads a value nothing uses). What the output's buffer ends with is recorded as the
  list of pieces stored, latest first, which the symbolic run finds.
-/
import proofs.«176227_j76828374991464_1_alg».proof.Proof.KIShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a first tile: the pieces the output block ends with, and the run. -/
noncomputable def kernelRun0_A (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) :
    { L3 : List (View.Piece (Elt F) S1x24x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KIRunB.lean ====
/-
  The kernel body of `Cert.KernelIdeal` run whole at a point where the tile coordinate is not zero (tiles 1 to 4 of a batch).

  There the body skips the clearing store: it loads the three input blocks, computes the tile's four row sums, reads
  the output block — what the tile before left there —, adds, and stores the block whole. The output's running
  contents are therefore a parameter of the run.
-/
import proofs.«176227_j76828374991464_1_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later tile: the pieces the output block ends with, and the run. -/
noncomputable def kernelRun0_B (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) :
    { L3 : List (View.Piece (Elt F) S1x24x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__reduce_kernel i arg2 harg2 arg3 harg3 arg4 harg4 arg5 harg5) K } := by
  refine ⟨?_, fun E K => ?run⟩
  case run =>
    simp only [cc0__reduce_kernel_eq_skeleton]; unfold cc0__reduce_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.KIFrame.lean ====
/-
  The frame of the program `Cert.KernelIdeal`, last part: the accumulator point by point, the proof data of the pipeline,
  the body obligation, the run of @main and the frame.

  What the output block's staging buffer holds after the body at point t is defined by recursion on t: at a first
  tile (t mod 5 = 0) what the clearing run leaves, from the three input blocks alone; at a later tile what the adding
  run leaves, from the three input blocks and what point t - 1 left — the buffer is not written back between two
  tiles of one batch (the write-back comes after tile 4), so the body finds it as the point before left it. The
  inputs' buffers hold their blocks at every point. With that the body's two runs discharge the pipeline's obligation
  at every point, the launch theorem for a region followed by host operations gives the run of @main, and the run's
  post, read at the three arguments, is the frame.
-/
import proofs.«176227_j76828374991464_1_alg».proof.Proof.KIRunB

set_option maxRecDepth 16384
-- every statement over the 77-operation list is past the default budget to elaborate
set_option maxHeartbeats 40000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a first tile the stores cover the output block (two stores of the whole block). -/
theorem cover0_A_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) (y : S1x24x4.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x24x4.size (by sl_kernel_rfl) y

/-- What a first tile leaves in the output block's buffer. -/
def out0_A_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) : Vec F S1x24x4 .f32 :=
  VO0_3.read (Elt F) (VO0_3.writes (Elt F) VO0_3.junk (kernelRun0_A c i arg2 harg2 arg3 harg3 arg4 harg4 arg5 harg5 hc0 x0 x1 x2).1)

/-- At a later tile the one store covers the output block. -/
theorem cover0_B_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) (y : S1x24x4.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x24x4.size (by sl_kernel_rfl) y

/-- What a later tile leaves in the output block's buffer, over what it found there. -/
def out0_B_3 (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) : Vec F S1x24x4 .f32 :=
  VO0_3.read (Elt F) (VO0_3.writes (Elt F) VO0_3.junk (kernelRun0_B c i arg2 harg2 arg3 harg3 arg4 harg4 arg5 harg5 hc0 x0 x1 x2 xo3).1)

/-! ## The accumulator, point by point -/

/-- What the output block's buffer holds after the body at position `n` of the grid. -/
def outsAt0 (c : Dev nD) : (n : ℕ) → n < cfg0.N → Vec F S1x24x4 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 5 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first tile: the clearing run's contents. -/
theorem outsAt0_A (c : Dev nD) (t : Fin cfg0.N) (h0 : t.val % 5 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later tile: the adding run's contents, over what the point before left. -/
theorem outsAt0_B (c : Dev nD) (t : Fin cfg0.N) (h0 : ¬t.val % 5 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at the accumulator; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later tile the output's buffer holds what the body left at the point before: the point is not the first, and
    the buffer was not written back between (a write-back follows tile 4 only, and the point before a later tile is
    tile 0, 1, 2 or 3). -/
theorem before0_3_B (c : Dev nD) (t : Fin cfg0.N) (h0 : ¬t.val % 5 = 0) (d) :
    (dats m 0 c).before 3 t d = (outsAt0 m c (t.val - 1) (Nat.lt_of_le_of_lt (Nat.sub_le _ _) t.isLt)) := by
  have hN : t.val < 80 := lt_of_lt_of_eq t.isLt (show cfg0.N = 80 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point is a first tile or a later one; at a later
    tile the output's buffer holds what the point before left; so the matching run applies, and what its stores leave,
    read back, is the accumulator's value at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 80 := lt_of_lt_of_eq t.isLt (show cfg0.N = 80 from N_0)
  by_cases h0 : t.val % 5 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, and every
    final state has each array of the pipeline at what the proof data computes and every other unscoped buffer at what
    the 77 later operations leave, run from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end without a fault and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KIResults.lean ====
/-
  The idealized kernel program's run with its four results named.

  The later operations start from the buffers as the region leaves them: the four arrays of the pipeline at what the
  proof data computes (the three arguments as found; the kernel's result array at the accumulator's written-back
  blocks), every other buffer as launched. Each of the four results @main returns is written by one of those
  operations and by no array of the pipeline, so the run's post gives it as the operations' value at that buffer; the
  arguments are kept as in the frame.
-/
import proofs.«176227_j76828374991464_1_alg».proof.Proof.KIFrame
import Idealize.ShloMosaic.Lib.StableHlo.Run

set_option maxRecDepth 16384
set_option maxHeartbeats 40000000

noncomputable section

namespace Cert.KernelIdeal.Res

open Cert.KernelIdeal Cert.KernelIdeal.Gen Cert.KernelIdeal.Fr
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers the later operations start from. -/
def exitVal (c : Dev nD) : Valuation τ sig (Elt F) :=
  Pipeline.withArrays (cfgs 0).spec c (V0 m c) fun w => (dats m 0 c).arrAt w (cfgs 0).N

/-- There the kernel's result array holds the written-back accumulator blocks, -/
theorem exitVal_v0 (c : Dev nD) : exitVal m c (Proc.devRef .tc main_v0) = (dats m 0 c).arrAt 3 cfg0.N :=
  Pipeline.withArrays_arr spec0 launch0.win.arr_inj c _ _ 3

/-- the predicted boxes are as launched, -/
theorem exitVal_arg1 (c : Dev nD) : exitVal m c (Proc.devRef .tc main_arg1) = m ((c.tc : Thread nD τ).loc main_arg1) :=
  (Pipeline.withArrays_arr spec0 launch0.win.arr_inj c _ _ 2).trans
    (((dats m 0 c).arrAt_in 2 rfl _).trans ((A_eq m c 2).trans (V_main_arg1 m c)))

/-- and so are the ground-truth boxes. -/
theorem exitVal_arg2 (c : Dev nD) : exitVal m c (Proc.devRef .tc main_arg2) = m ((c.tc : Thread nD τ).loc main_arg2) :=
  (Pipeline.withArrays_arr spec0 launch0.win.arr_inj c _ _ 1).trans
    (((dats m 0 c).arrAt_in 1 rfl _).trans ((A_eq m c 1).trans (V_main_arg2 m c)))

/-- A buffer no window stages and no scope owns is read back at the later operations' value. -/
theorem tail_at (c : Dev nD) (b : Ref sig .tc) :
    Pipeline.afterTail₀ cfgs (dats m) 0 (V0 m) [hostOps1] c b = StableHlo.after hostOps1 (exitVal m c) (Proc.devRef .tc b) := by
  unfold Pipeline.afterTail₀ exitVal
  simp only [List.flatten_cons, List.flatten_nil, List.append_nil]

/-- The run of @main: the four results at the later operations' values, the three arguments as launched. -/
theorem run_results : θ_run defs (onTc (τ := τ) (main (F := F))) ⟨m, fun _ => 0, ρ⟩ (fun r => ∀ c : Dev nD,
      r.2.mem ((c.tc : Thread nD τ).loc main_v60) = StableHlo.after hostOps1 (exitVal m c) (Proc.devRef .tc main_v60)
      ∧ r.2.mem ((c.tc : Thread nD τ).loc main_v58) = StableHlo.after hostOps1 (exitVal m c) (Proc.devRef .tc main_v58)
      ∧ r.2.mem ((c.tc : Thread nD τ).loc main_v18) = StableHlo.after hostOps1 (exitVal m c) (Proc.devRef .tc main_v18)
      ∧ r.2.mem ((c.tc : Thread nD τ).loc main_v30) = StableHlo.after hostOps1 (exitVal m c) (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v60 (Pipeline.mem_restRefs_of main_v60 rfl (by decide))).trans (tail_at m c main_v60),
     ((h c).2 main_v58 (Pipeline.mem_restRefs_of main_v58 rfl (by decide))).trans (tail_at m c main_v58),
     ((h c).2 main_v18 (Pipeline.mem_restRefs_of main_v18 rfl (by decide))).trans (tail_at m c main_v18),
     ((h c).2 main_v30 (Pipeline.mem_restRefs_of main_v30 rfl (by decide))).trans (tail_at m c main_v30),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c)))⟩)
    (run_main m ρ)

end Cert.KernelIdeal.Res

end
-- ==== Proof.Spec.lean ====
/-
  What both programs compute for ONE point against ONE box, over the extended reals, and the few laws that join the two
  programs' spellings of it.

  A box has a lower and an upper corner; a point lies inside it when, on each of the three axes, (lo − x)·(x − hi) > 0.
  `hit` is that test on one axis as the number 0 or 1, `soft` its smooth version σ(clip(100·(lo − x)·(x − hi), −20, 20)).
  The point is inside the ground-truth box when all three tests hold (`gin`: the count 0 + h₀ + h₁ + h₂ equals 3), its
  soft membership in the predicted box is the least of the three smooth tests (`pin`), and `ce` is the cross entropy
  −g·log(p + ε) − (1 − g)·log(1 − p + ε) of the two.

  The literals are kept as the binary32 words both programs spell; only 0, 1 and 3 are ever evaluated.

  The laws: the mean of three 0/1 numbers equals 1 exactly when their sum equals 3 (the reference tests the mean, the
  kernel the sum); −g = 0 − g; the least of three numbers folded from +∞; the sigmoid spelled 1/(1 + e^(−z)); and a
  factor that is 0 or 1 moves inside a finite sum of extended reals whatever the terms are (0·(±∞) = 0 here), which is
  what lets a per-box 0/1 weight be applied before or after summing over the points.
-/
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset

noncomputable section

namespace Cert.Spec

open Idealize.ShloMosaic
open scoped BigOperators

/-! ## The literals -/

abbrev zero : EReal := Ideal.ofBits .f32 0x00000000#32
abbrev one : EReal := Ideal.ofBits .f32 0x3F800000#32
abbrev three : EReal := Ideal.ofBits .f32 0x40400000#32
abbrev hundred : EReal := Ideal.ofBits .f32 0x42C80000#32
abbrev lo20 : EReal := Ideal.ofBits .f32 0xC1A00000#32
abbrev hi20 : EReal := Ideal.ofBits .f32 0x41A00000#32
abbrev eps : EReal := Ideal.ofBits .f32 0x322BCC77#32
abbrev pinf : EReal := Ideal.ofBits .f32 0x7F800000#32

theorem zero_eq : zero = 0 := by simp [Ideal.ofBits, Ideal.ieee]
theorem one_eq : one = 1 := by simp [Ideal.ofBits, Ideal.ieee, -EReal.coe_mul]; norm_num
theorem three_eq : three = ((3 : ℝ) : EReal) := by simp [Ideal.ofBits, Ideal.ieee, -EReal.coe_mul]; norm_num
theorem pinf_eq : pinf = ⊤ := by simp [Ideal.ofBits, Ideal.ieee]

/-! ## One point against one box -/

/-- A one-bit answer as the number 0 or 1. -/
def bit (b : BitVec 1) : EReal := ((b.toNat : ℝ) : EReal)

/-- Whether `x` lies strictly between `lo` and `hi`, as 0 or 1. -/
def hit (lo x hi : EReal) : EReal := bit (Ideal.cmp .ogt ((lo - x) * (x - hi)) zero)

/-- The smooth test on one axis. -/
def soft (lo x hi : EReal) : EReal := Ideal.logistic (min hi20 (max lo20 (hundred * (lo - x) * (x - hi))))

/-- Inside the ground-truth box: the three axis tests all hold. -/
def gin (h0 h1 h2 : EReal) : EReal := bit (Ideal.cmp .oeq (zero + h0 + h1 + h2) three)

/-- Soft membership in the predicted box: the least of the three smooth tests. -/
def pin (s0 s1 s2 : EReal) : EReal := min (min s0 s1) s2

/-- The cross entropy of a hard label `g` against a probability `p`. -/
def ce (g p : EReal) : EReal := (zero - g) * Ideal.log (p + eps) - (one - g) * Ideal.log (one - p + eps)

/-! ## Every point against every box

`X` holds the points (batch, point, 9 channels of which the first three are the coordinates), `Y` the ground-truth
boxes and `P` the predicted boxes (batch, box, corner 0 = lower / 1 = upper, axis). -/

section Arrays

open Idealize.ShloMosaic.ValueIdx

variable (X : (⟨3, ![16, 40960, 9]⟩ : Shape).Idx → EReal) (P Y : (⟨4, ![16, 24, 2, 3]⟩ : Shape).Idx → EReal)

/-- Point `n` of batch `b` inside ground-truth box `h`, as 0 or 1. -/
def gAt (b : Fin 16) (h : Fin 24) (n : Fin 40960) : EReal :=
  gin (hit (Y (ix4 b h 0 0)) (X (ix3 b n 0)) (Y (ix4 b h 1 0)))
      (hit (Y (ix4 b h 0 1)) (X (ix3 b n 1)) (Y (ix4 b h 1 1)))
      (hit (Y (ix4 b h 0 2)) (X (ix3 b n 2)) (Y (ix4 b h 1 2)))

/-- Its soft membership in predicted box `h`. -/
def pAt (b : Fin 16) (h : Fin 24) (n : Fin 40960) : EReal :=
  pin (soft (P (ix4 b h 0 0)) (X (ix3 b n 0)) (P (ix4 b h 1 0)))
      (soft (P (ix4 b h 0 1)) (X (ix3 b n 1)) (P (ix4 b h 1 1)))
      (soft (P (ix4 b h 0 2)) (X (ix3 b n 2)) (P (ix4 b h 1 2)))

/-- The four quantities summed over the points: the cross entropy, the soft true positives, the soft count, the hard count. -/
def term (k : Fin 4) (b : Fin 16) (h : Fin 24) (n : Fin 40960) : EReal :=
  match k with
  | 0 => ce (gAt X Y b h n) (pAt X P b h n)
  | 1 => pAt X P b h n * gAt X Y b h n
  | 2 => pAt X P b h n
  | 3 => gAt X Y b h n

/-- Point `l` of tile `j` (8192 points a tile, five tiles). -/
def tilePt (j : Fin 5) (l : Fin 8192) : Fin 40960 := ⟨8192 * j.val + l.val, by have := j.isLt; have := l.isLt; omega⟩

end Arrays

/-! ## The laws -/

theorem bit_zero_or_one (b : BitVec 1) : bit b = 0 ∨ bit b = 1 := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl
  · left; simp [bit]
  · right; simp [bit]

/-- The reference negates the label where the kernel subtracts it from zero. -/
theorem neg_eq_zero_sub (g : EReal) : -g = zero - g := by rw [zero_eq, zero_sub]

/-- The sigmoid, spelled out. -/
theorem logistic_eq (z : EReal) : Ideal.logistic z = Ideal.div one (one + Ideal.exp (-z)) := by
  rw [one_eq]; rfl

/-- The least of three numbers, folded from +∞. -/
theorem pin_fold (s0 s1 s2 : EReal) : min (min (min pinf s0) s1) s2 = pin s0 s1 s2 := by
  rw [pinf_eq, min_eq_right le_top]; rfl

/-- The mean of three 0/1 numbers is 1 exactly when their sum is 3. -/
theorem gin_of_mean (b0 b1 b2 : BitVec 1) :
    bit (Ideal.cmp .oeq (Ideal.div (zero + (bit b0 + bit b1 + bit b2)) three) one) = gin (bit b0) (bit b1) (bit b2) := by
  -- the sum is a real number r; r · (1/3) = 1 exactly when r = 3
  obtain ⟨r, hr⟩ : ∃ r : ℝ, zero + (bit b0 + bit b1 + bit b2) = ((r : ℝ) : EReal) :=
    ⟨0 + ((b0.toNat : ℝ) + (b1.toNat : ℝ) + (b2.toNat : ℝ)), by
      rw [zero_eq]; unfold bit; push_cast; rfl⟩
  have hsum : zero + bit b0 + bit b1 + bit b2 = ((r : ℝ) : EReal) := by
    rw [← hr, add_assoc, add_assoc, ← add_assoc (bit b0)]
  unfold gin
  rw [hsum, hr, three_eq, one_eq, Ideal.div_coe (by norm_num : (3 : ℝ) ≠ 0)]
  congr 1
  unfold Ideal.cmp
  congr 1
  have key : ((r : ℝ) : EReal) * ((1 / 3 : ℝ) : EReal) = 1 ↔ ((r : ℝ) : EReal) = ((3 : ℝ) : EReal) := by
    rw [← EReal.coe_mul, ← EReal.coe_one, EReal.coe_eq_coe_iff, EReal.coe_eq_coe_iff]
    constructor <;> intro h <;> linarith
  exact decide_eq_decide.mpr key

/-- A 0/1 factor moves inside a finite sum of extended reals. -/
theorem sum_mul_bit {ι : Type*} (s : Finset ι) (f : ι → EReal) (w : EReal) (hw : w = 0 ∨ w = 1) :
    (∑ n ∈ s, f n) * w = ∑ n ∈ s, f n * w := by
  rcases hw with rfl | rfl
  · simp
  · simp

/-- A sum over the 40960 points is the sum over the five tiles of the sums over each tile's 8192 points. -/
theorem sum_tiles (f : Fin 40960 → EReal) : ∑ n : Fin 40960, f n = ∑ j : Fin 5, ∑ l : Fin 8192, f (tilePt j l) := by
  -- points are numbered tile by tile: n = 8192 j + l is a bijection from pairs (j, l)
  rw [← Finset.sum_product']
  refine (Finset.sum_bij' (fun (jl : Fin 5 × Fin 8192) _ => tilePt jl.1 jl.2)
    (fun (n : Fin 40960) _ => ((⟨n.val / 8192, by have := n.isLt; omega⟩ : Fin 5), (⟨n.val % 8192, Nat.mod_lt _ (by norm_num)⟩ : Fin 8192)))
    (fun _ _ => Finset.mem_univ _) (fun _ _ => Finset.mem_univ _) ?_ ?_ (fun _ _ => rfl)).symm
  · rintro ⟨j, l⟩ _
    have hj := j.isLt; have hl := l.isLt
    refine Prod.ext (Fin.ext ?_) (Fin.ext ?_)
    · show (8192 * j.val + l.val) / 8192 = j.val; omega
    · show (8192 * j.val + l.val) % 8192 = l.val; omega
  · intro n _
    refine Fin.ext ?_
    show 8192 * (n.val / 8192) + n.val % 8192 = n.val
    omega

end Cert.Spec

end
-- ==== Proof.KIStored.lean ====
/-
  The value the kernel body stores into its output block, as ONE function of the four blocks it loads, and one point of
  a tile against one box in the tile's own blocks.

  The body's pure values are composed in the order the body binds them: from the point block the three coordinate rows;
  from the two box blocks their lower and upper corners; per axis the hard test accumulated into a count and the smooth
  test folded into a running minimum; the 0/1 label, the cross entropy, the four sums over the tile's 8192 points set
  side by side as four columns, and those added to the block found in the output buffer.
-/
import proofs.«176227_j76828374991464_1_alg».proof.Proof.Gen.KernelIdeal.Skeleton
import proofs.«176227_j76828374991464_1_alg».proof.Proof.Spec
import Idealize.ShloMosaic.Lib.ValueIdx

noncomputable section

namespace Cert.KernelIdeal.Body

open Cert.KernelIdeal Cert.KernelIdeal.Gen Idealize.ShloMosaic Idealize.ShloMosaic.ValueIdx

variable [Cert.KernelIdeal.Facts]

/-- The value stored into the output block: `x0` the point block, `x1` the ground-truth box block, `x2` the predicted
    box block, `acc` the output block as found. -/
def stored {F : FTy → Type} [FloatOps F] (x0 : Vec F S1x8192x9 .f32) (x1 x2 : Vec F S1x24x2x3 .f32) (acc : Vec F S1x24x4 .f32) :
    FVec F S1x24x4 .f32 :=
  k0_pay1
    (k0_pay22 (k0_pay16 (k0_pay3 x0) (k0_pay6 x1) (k0_pay7 x1) (k0_pay11 x0 x1)) (k0_pay19 (k0_pay3 x0) (k0_pay6 x1) (k0_pay7 x1)) (k0_pay20 (F := F)))
    (k0_pay23 (k0_pay8 x2) (k0_pay9 x2) (k0_pay16 (k0_pay3 x0) (k0_pay6 x1) (k0_pay7 x1) (k0_pay11 x0 x1))
      (k0_pay17 (k0_pay3 x0) (k0_pay8 x2) (k0_pay9 x2) (k0_pay10 x0) (k0_pay12 x2) (k0_pay13 x0 x2) (k0_pay14 (F := F)))
      (k0_pay18 (k0_pay3 x0)) (k0_pay19 (k0_pay3 x0) (k0_pay6 x1) (k0_pay7 x1)) (k0_pay20 (F := F)))
    (k0_pay24 (k0_pay8 x2) (k0_pay9 x2) (k0_pay16 (k0_pay3 x0) (k0_pay6 x1) (k0_pay7 x1) (k0_pay11 x0 x1))
      (k0_pay17 (k0_pay3 x0) (k0_pay8 x2) (k0_pay9 x2) (k0_pay10 x0) (k0_pay12 x2) (k0_pay13 x0 x2) (k0_pay14 (F := F)))
      (k0_pay18 (k0_pay3 x0)) (k0_pay19 (k0_pay3 x0) (k0_pay6 x1) (k0_pay7 x1)) (k0_pay20 (F := F)))
    (k0_pay25 (k0_pay8 x2) (k0_pay9 x2)
      (k0_pay17 (k0_pay3 x0) (k0_pay8 x2) (k0_pay9 x2) (k0_pay10 x0) (k0_pay12 x2) (k0_pay13 x0 x2) (k0_pay14 (F := F)))
      (k0_pay18 (k0_pay3 x0)))
    acc

/-- One point `l` of the tile against box `h`: the summand of column `k` of the four sums. -/
def tileTerm (x0 : Vec Ideal S1x8192x9 .f32) (x1 x2 : Vec Ideal S1x24x2x3 .f32) (k : Fin 4) (h : Fin 24) (l : Fin 8192) : EReal :=
  let g := Cert.Spec.gin (Cert.Spec.hit (x1 (ix4 0 h 0 0)) (x0 (ix3 0 l 0)) (x1 (ix4 0 h 1 0)))
      (Cert.Spec.hit (x1 (ix4 0 h 0 1)) (x0 (ix3 0 l 1)) (x1 (ix4 0 h 1 1)))
      (Cert.Spec.hit (x1 (ix4 0 h 0 2)) (x0 (ix3 0 l 2)) (x1 (ix4 0 h 1 2)))
  let p := Cert.Spec.pin (Cert.Spec.soft (x2 (ix4 0 h 0 0)) (x0 (ix3 0 l 0)) (x2 (ix4 0 h 1 0)))
      (Cert.Spec.soft (x2 (ix4 0 h 0 1)) (x0 (ix3 0 l 1)) (x2 (ix4 0 h 1 1)))
      (Cert.Spec.soft (x2 (ix4 0 h 0 2)) (x0 (ix3 0 l 2)) (x2 (ix4 0 h 1 2)))
  match k with
  | 0 => Cert.Spec.ce g p
  | 1 => p * g
  | 2 => p
  | 3 => g

end Cert.KernelIdeal.Body

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.KIBody.lean ====
/-
  The value the kernel body stores into its output block, read at one index.

  The body works on one tile: 8192 points (nine channels each, of which the first three are the coordinates), 24
  ground-truth boxes and 24 predicted boxes (a lower and an upper corner, three axes each), and the output block of 24
  rows and four columns as found. Reading the stored value at row `h`, column `k` walks the body from the store
  backwards: the block is the block found plus four columns set side by side; each column is a sum over the tile's
  points of one quantity of point `l` against box `h`; each quantity is built elementwise from the three hard axis
  tests (a count compared with 3) and the three smooth axis tests (a running minimum); and each operand of those is one
  entry of a box block or of the point block, reached through slices, a transpose, unit-axis casts and row and column
  broadcasts. The layout steps come first, then the elementwise values, then the four sums, then the columns.
-/
import proofs.«176227_j76828374991464_1_alg».proof.Proof.Gen.KernelIdeal.Skeleton
import proofs.«176227_j76828374991464_1_alg».proof.Proof.Spec
import proofs.«176227_j76828374991464_1_alg».proof.Proof.LibKeepdims
import proofs.«176227_j76828374991464_1_alg».proof.Proof.KIStored
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable [Cert.KernelIdeal.Facts]

/-! ## The layout steps read at an index -/

section Layout
variable {α : Type}

/-- A `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Row `c` of the transposed coordinate columns, at point `l`, is channel `c` of point `l`. -/
theorem pay3_apply (x0 : Vec Ideal S1x8192x9 .f32) (c : Fin 3) (c' : Fin 9) (hc : c'.val = c.val) (l : Fin 8192) :
    k0_pay3 x0 (ix2 c l) = x0 (ix3 0 l c') := by
  simp only [k0_pay3]
  refine (transpose_ix2_apply _ transposes_S8192x3_p1_0_S3x8192 c l).trans ?_
  refine (slice2_axis1_apply 0 _ slices_S8192x9_o0_0_S8192x3 l c c' (by omega)).trans ?_
  exact shapeCast_1ab_ab_apply x0 shapeCasts_S1x8192x9_S8192x9 l c'

/-- A box block without its leading unit axis. -/
theorem pay4_apply (x : Vec Ideal S1x24x2x3 .f32) (h : Fin 24) (a : Fin 2) (c : Fin 3) :
    k0_pay4 x (ix3 h a c) = x (ix4 0 h a c) :=
  shapeCast_1abc_abc_apply x shapeCasts_S1x24x2x3_S24x2x3 h a c

/-- The lower corners of the ground-truth boxes. -/
theorem pay6_apply (x : Vec Ideal S1x24x2x3 .f32) (h : Fin 24) (c : Fin 3) : k0_pay6 x (ix2 h c) = x (ix4 0 h 0 c) := by
  simp only [k0_pay6]
  refine (shapeCast_a1b_ab_apply _ shapeCasts_S24x1x3_S24x3 h c).trans ?_
  refine (slice3_axis1_apply 0 _ slices_S24x2x3_o0_0_0_S24x1x3 h 0 c 0 rfl).trans ?_
  exact pay4_apply x h 0 c

/-- The upper corners of the ground-truth boxes. -/
theorem pay7_apply (x : Vec Ideal S1x24x2x3 .f32) (h : Fin 24) (c : Fin 3) : k0_pay7 x (ix2 h c) = x (ix4 0 h 1 c) := by
  simp only [k0_pay7]
  refine (shapeCast_a1b_ab_apply _ shapeCasts_S24x1x3_S24x3 h c).trans ?_
  refine (slice3_axis1_apply 1 _ slices_S24x2x3_o0_1_0_S24x1x3 h 0 c 1 rfl).trans ?_
  exact pay4_apply x h 1 c

/-- The lower corners of the predicted boxes. -/
theorem pay8_apply (x : Vec Ideal S1x24x2x3 .f32) (h : Fin 24) (c : Fin 3) : k0_pay8 x (ix2 h c) = x (ix4 0 h 0 c) :=
  pay6_apply x h c

/-- The upper corners of the predicted boxes. -/
theorem pay9_apply (x : Vec Ideal S1x24x2x3 .f32) (h : Fin 24) (c : Fin 3) : k0_pay9 x (ix2 h c) = x (ix4 0 h 1 c) :=
  pay7_apply x h c

/-- Column `c` of a corner table, broadcast along the points: at `(h, l)` the table's entry `(h, c)`. -/
theorem col_apply (off : Fin 2 → ℕ) (v : FVec Ideal S24x3 .f32) (hs : S24x3.Slices off S24x1) (c : Fin 3)
    (h0 : off 0 = 0) (h1 : off 1 = c.val) (h : Fin 24) (l : Fin 8192) :
    broadcastTo S24x8192 (extractStridedSlice S24x1 off v hs) broadcasts_S24x1_S24x8192 (ix2 h l) = v (ix2 h c) := by
  refine (broadcastTo_a1_ab_apply _ broadcasts_S24x1_S24x8192 h l).trans ?_
  exact extractStridedSlice_apply off v hs (ix2 h (0 : Fin 1)) (ix2 h c) fun ax => by
    match ax with
    | ⟨0, _⟩ => show h.val = off 0 + h.val; omega
    | ⟨1, _⟩ => show c.val = off 1 + 0; omega

/-- Row `c` of the coordinate rows, broadcast along the boxes: at `(h, l)` the row's entry at `l`. -/
theorem row_apply (off : Fin 2 → ℕ) (v : FVec Ideal S3x8192 .f32) (hs : S3x8192.Slices off S1x8192) (c : Fin 3)
    (h0 : off 0 = c.val) (h1 : off 1 = 0) (h : Fin 24) (l : Fin 8192) :
    broadcastTo S24x8192 (extractStridedSlice S1x8192 off v hs) broadcasts_S1x8192_S24x8192 (ix2 h l) = v (ix2 c l) := by
  refine (broadcastTo_1b_ab_apply _ broadcasts_S1x8192_S24x8192 h l).trans ?_
  exact extractStridedSlice_apply off v hs (ix2 (0 : Fin 1) l) (ix2 c l) fun ax => by
    match ax with
    | ⟨0, _⟩ => show c.val = off 0 + 0; omega
    | ⟨1, _⟩ => show l.val = off 1 + l.val; omega

end Layout

/-! ## The elementwise values -/

section Values

/-- A one-bit answer widened to 32 bits and read as a signed integer is the number 0 or 1. -/
theorem sitofp_setWidth (b : BitVec 1) :
    (FloatOps.sitofp (F := Ideal) .f32 (b.setWidth 32) : EReal) = Cert.Spec.bit b := by
  have e : (b.setWidth 32).toInt = (b.toNat : ℤ) := by
    rcases BitVec.eq_zero_or_eq_one b with rfl | rfl <;> decide
  show (((b.setWidth 32).toInt : ℝ) : EReal) = ((b.toNat : ℝ) : EReal)
  rw [e, Int.cast_natCast]

/-- The sigmoid of a vector, read at an index. -/
theorem logistic_apply {s : Shape} {φ : FTy} (a : FVec Ideal s φ) (i : s.Idx) : logistic a i = Ideal.logistic (a i) := rfl

/-- The logarithm of a vector, read at an index. -/
theorem log_apply {s : Shape} {φ : FTy} (a : FVec Ideal s φ) (i : s.Idx) : log a i = Ideal.log (a i) := rfl

/-- The hard test on axis 0, added to the zero count. -/
theorem pay11_apply (x0 : Vec Ideal S1x8192x9 .f32) (x1 : Vec Ideal S1x24x2x3 .f32) (h : Fin 24) (l : Fin 8192) :
    k0_pay11 (F := Ideal) x0 x1 (ix2 h l)
      = Cert.Spec.zero + Cert.Spec.hit (x1 (ix4 0 h 0 0)) (x0 (ix3 0 l 0)) (x1 (ix4 0 h 1 0)) := by
  have eLo := (col_apply ![0, 0] (k0_pay6 x1) slices_S24x3_o0_0_S24x1 0 rfl rfl h l).trans (pay6_apply x1 h 0)
  have eHi := (col_apply ![0, 0] (k0_pay7 x1) slices_S24x3_o0_0_S24x1 0 rfl rfl h l).trans (pay7_apply x1 h 0)
  have eX : broadcastTo S24x8192 (k0_pay10 x0) broadcasts_S1x8192_S24x8192 (ix2 h l) = x0 (ix3 0 l 0) :=
    (row_apply ![0, 0] (k0_pay3 x0) slices_S3x8192_o0_0_S1x8192 0 rfl rfl h l).trans (pay3_apply x0 0 0 rfl l)
  simp only [k0_pay11, addf_apply, subf_apply, mulf_apply, cmpf_apply, extui_apply, sitofp_apply, broadcast_apply]
  rw [eLo, eHi, eX, sitofp_setWidth]
  rfl

/-- The hard test on axis 1, added to the count so far. -/
theorem pay16_apply (v6 : FVec Ideal S3x8192 .f32) (v12 v14 : FVec Ideal S24x3 .f32) (v34 : FVec Ideal S24x8192 .f32)
    (h : Fin 24) (l : Fin 8192) :
    k0_pay16 v6 v12 v14 v34 (ix2 h l)
      = v34 (ix2 h l) + Cert.Spec.hit (v12 (ix2 h 1)) (v6 (ix2 1 l)) (v14 (ix2 h 1)) := by
  have eLo := col_apply ![0, 1] v12 slices_S24x3_o0_1_S24x1 1 rfl rfl h l
  have eHi := col_apply ![0, 1] v14 slices_S24x3_o0_1_S24x1 1 rfl rfl h l
  have eX : broadcastTo S24x8192 (k0_pay15 v6) broadcasts_S1x8192_S24x8192 (ix2 h l) = v6 (ix2 1 l) :=
    row_apply ![1, 0] v6 slices_S3x8192_o1_0_S1x8192 1 rfl rfl h l
  simp only [k0_pay16, addf_apply, subf_apply, mulf_apply, cmpf_apply, extui_apply, sitofp_apply, broadcast_apply]
  rw [eLo, eHi, eX, sitofp_setWidth]
  rfl

/-- The product the hard test on axis 2 compares with zero. -/
theorem pay19_apply (v6 : FVec Ideal S3x8192 .f32) (v12 v14 : FVec Ideal S24x3 .f32) (h : Fin 24) (l : Fin 8192) :
    k0_pay19 v6 v12 v14 (ix2 h l) = (v12 (ix2 h 2) - v6 (ix2 2 l)) * (v6 (ix2 2 l) - v14 (ix2 h 2)) := by
  have eLo := col_apply ![0, 2] v12 slices_S24x3_o0_2_S24x1 2 rfl rfl h l
  have eHi := col_apply ![0, 2] v14 slices_S24x3_o0_2_S24x1 2 rfl rfl h l
  have eX : broadcastTo S24x8192 (k0_pay18 v6) broadcasts_S1x8192_S24x8192 (ix2 h l) = v6 (ix2 2 l) :=
    row_apply ![2, 0] v6 slices_S3x8192_o2_0_S1x8192 2 rfl rfl h l
  simp only [k0_pay19, subf_apply, mulf_apply]
  rw [eLo, eHi, eX]

/-- The 0/1 label: the count of the first two tests plus the third test, compared with 3. -/
theorem pay22_apply (v65 v92 v93 : FVec Ideal S24x8192 .f32) (j : S24x8192.Idx) :
    k0_pay22 v65 v92 v93 j
      = Cert.Spec.bit (Ideal.cmp .oeq (v65 j + Cert.Spec.bit (Ideal.cmp .ogt (v92 j) (v93 j))) Cert.Spec.three) := by
  simp only [k0_pay22, addf_apply, cmpf_apply, extui_apply, sitofp_apply, broadcast_apply]
  rw [sitofp_setWidth, sitofp_setWidth]
  rfl

/-- The lower predicted corner on axis 0 less the point's coordinate. -/
theorem pay13_apply (x0 : Vec Ideal S1x8192x9 .f32) (x2 : Vec Ideal S1x24x2x3 .f32) (h : Fin 24) (l : Fin 8192) :
    k0_pay13 (F := Ideal) x0 x2 (ix2 h l) = x2 (ix4 0 h 0 0) - x0 (ix3 0 l 0) := by
  have eLo := (col_apply ![0, 0] (k0_pay8 x2) slices_S24x3_o0_0_S24x1 0 rfl rfl h l).trans (pay8_apply x2 h 0)
  have eX : broadcastTo S24x8192 (k0_pay10 x0) broadcasts_S1x8192_S24x8192 (ix2 h l) = x0 (ix3 0 l 0) :=
    (row_apply ![0, 0] (k0_pay3 x0) slices_S3x8192_o0_0_S1x8192 0 rfl rfl h l).trans (pay3_apply x0 0 0 rfl l)
  simp only [k0_pay13, subf_apply]
  rw [eLo, eX]

/-- The smooth tests on axes 0 and 1, the lesser of the two; axis 0's operands arrive already read. -/
theorem pay17_apply (v6 : FVec Ideal S3x8192 .f32) (v16 v18 : FVec Ideal S24x3 .f32) (v20 : FVec Ideal S1x8192 .f32)
    (v36 : FVec Ideal S24x1 .f32) (v39 v40 : FVec Ideal S24x8192 .f32) (h : Fin 24) (l : Fin 8192) :
    k0_pay17 v6 v16 v18 v20 v36 v39 v40 (ix2 h l)
      = min (Ideal.logistic (min Cert.Spec.hi20 (max Cert.Spec.lo20
              (v40 (ix2 h l) * v39 (ix2 h l) * (v20 (ix2 0 l) - v36 (ix2 h 0))))))
          (Cert.Spec.soft (v16 (ix2 h 1)) (v6 (ix2 1 l)) (v18 (ix2 h 1))) := by
  have eX0 := broadcastTo_1b_ab_apply v20 broadcasts_S1x8192_S24x8192 h l
  have eHi0 := broadcastTo_a1_ab_apply v36 broadcasts_S24x1_S24x8192 h l
  have eLo := col_apply ![0, 1] v16 slices_S24x3_o0_1_S24x1 1 rfl rfl h l
  have eHi := col_apply ![0, 1] v18 slices_S24x3_o0_1_S24x1 1 rfl rfl h l
  have eX : broadcastTo S24x8192 (k0_pay15 v6) broadcasts_S1x8192_S24x8192 (ix2 h l) = v6 (ix2 1 l) :=
    row_apply ![1, 0] v6 slices_S3x8192_o1_0_S1x8192 1 rfl rfl h l
  simp only [k0_pay17, logistic_apply, subf_apply, mulf_apply, maximumf_apply, minimumf_apply, broadcast_apply]
  rw [eX0, eHi0, eLo, eHi, eX]
  rfl

/-- The smooth test on axis 2 folded into the running minimum. -/
theorem pay21_apply (v16 v18 : FVec Ideal S24x3 .f32) (v82 : FVec Ideal S24x8192 .f32) (v83 : FVec Ideal S1x8192 .f32)
    (h : Fin 24) (l : Fin 8192) :
    k0_pay21 v16 v18 v82 v83 (ix2 h l)
      = min (v82 (ix2 h l)) (Cert.Spec.soft (v16 (ix2 h 2)) (v83 (ix2 0 l)) (v18 (ix2 h 2))) := by
  have eLo := col_apply ![0, 2] v16 slices_S24x3_o0_2_S24x1 2 rfl rfl h l
  have eHi := col_apply ![0, 2] v18 slices_S24x3_o0_2_S24x1 2 rfl rfl h l
  have eX := broadcastTo_1b_ab_apply v83 broadcasts_S1x8192_S24x8192 h l
  simp only [k0_pay21, logistic_apply, subf_apply, mulf_apply, maximumf_apply, minimumf_apply, broadcast_apply]
  rw [eLo, eHi, eX]
  rfl

end Values

/-! ## One point against one box

`tileTerm` at column 3 is the 0/1 label and at column 2 the soft membership; columns 0 and 1 are built from those two. -/

section Point

/-- The first coordinate row, cut out of the transposed coordinate columns. -/
theorem pay10_apply (x0 : Vec Ideal S1x8192x9 .f32) (u : Fin 1) (l : Fin 8192) :
    k0_pay10 (F := Ideal) x0 (ix2 u l) = x0 (ix3 0 l 0) :=
  (slice2_axis0_apply 0 (k0_pay3 x0) slices_S3x8192_o0_0_S1x8192 u l 0 (by omega)).trans (pay3_apply x0 0 0 rfl l)

/-- The third coordinate row. -/
theorem pay18_apply (v6 : FVec Ideal S3x8192 .f32) (u : Fin 1) (l : Fin 8192) : k0_pay18 v6 (ix2 u l) = v6 (ix2 2 l) :=
  slice2_axis0_apply 2 v6 slices_S3x8192_o2_0_S1x8192 u l 2 (by omega)

/-- The upper predicted corners on axis 0, as a column. -/
theorem pay12_apply (x2 : Vec Ideal S1x24x2x3 .f32) (h : Fin 24) (u : Fin 1) :
    k0_pay12 (F := Ideal) x2 (ix2 h u) = x2 (ix4 0 h 1 0) :=
  (slice2_axis1_apply 0 (k0_pay9 x2) slices_S24x3_o0_0_S24x1 h u 0 (by omega)).trans (pay9_apply x2 h 0)

variable (x0 : Vec Ideal S1x8192x9 .f32) (x1 x2 : Vec Ideal S1x24x2x3 .f32)

/-- The body's 0/1 label of point `l` against ground-truth box `h`. -/
theorem label_apply (h : Fin 24) (l : Fin 8192) :
    k0_pay22 (k0_pay16 (k0_pay3 x0) (k0_pay6 x1) (k0_pay7 x1) (k0_pay11 x0 x1))
        (k0_pay19 (k0_pay3 x0) (k0_pay6 x1) (k0_pay7 x1)) (k0_pay20 (F := Ideal)) (ix2 h l)
      = tileTerm x0 x1 x2 3 h l := by
  rw [pay22_apply, pay16_apply, pay11_apply, pay19_apply]
  simp only [pay6_apply, pay7_apply]
  rw [pay3_apply x0 1 1 rfl l, pay3_apply x0 2 2 rfl l]
  rfl

/-- The body's soft membership of point `l` in predicted box `h`. -/
theorem prob_apply (h : Fin 24) (l : Fin 8192) :
    k0_pay21 (k0_pay8 x2) (k0_pay9 x2)
        (k0_pay17 (k0_pay3 x0) (k0_pay8 x2) (k0_pay9 x2) (k0_pay10 x0) (k0_pay12 x2) (k0_pay13 x0 x2) (k0_pay14 (F := Ideal)))
        (k0_pay18 (k0_pay3 x0)) (ix2 h l)
      = tileTerm x0 x1 x2 2 h l := by
  rw [pay21_apply, pay17_apply, pay13_apply, pay10_apply, pay12_apply, pay18_apply]
  simp only [pay8_apply, pay9_apply]
  rw [pay3_apply x0 1 1 rfl l, pay3_apply x0 2 2 rfl l]
  rfl

end Point

/-! ## The four sums over the tile's points -/

section Sums

/-- A lane sum from the zero accumulator, kept as a column: at row `h` the sum of row `h`. -/
theorem rowsum_apply (v : FVec Ideal S24x8192 .f32) (h : Fin 24) (u : Fin 1) :
    shapeCast S24x1 (multiReduction .add [1] S24 v 0x00000000#32 reduces_S24x8192_S24 (.inl rfl) rfl) shapeCasts_S24_S24x1
        (ix2 h u)
      = ∑ l : Fin 8192, v (ix2 h l) :=
  (shapeCast_a_a1_apply _ shapeCasts_S24_S24x1 h u).trans (multiReduction_add_rows v _ reduces_S24x8192_S24 _ _ h)

/-- The soft count. -/
theorem pay25_apply (v16 v18 : FVec Ideal S24x3 .f32) (v82 : FVec Ideal S24x8192 .f32) (v83 : FVec Ideal S1x8192 .f32)
    (h : Fin 24) (u : Fin 1) :
    k0_pay25 v16 v18 v82 v83 (ix2 h u) = ∑ l : Fin 8192, k0_pay21 v16 v18 v82 v83 (ix2 h l) :=
  rowsum_apply _ h u

/-- The soft true positives. -/
theorem pay24_apply (v16 v18 : FVec Ideal S24x3 .f32) (v65 v82 : FVec Ideal S24x8192 .f32) (v83 : FVec Ideal S1x8192 .f32)
    (v92 v93 : FVec Ideal S24x8192 .f32) (h : Fin 24) (u : Fin 1) :
    k0_pay24 v16 v18 v65 v82 v83 v92 v93 (ix2 h u)
      = ∑ l : Fin 8192, k0_pay21 v16 v18 v82 v83 (ix2 h l) * k0_pay22 v65 v92 v93 (ix2 h l) :=
  rowsum_apply _ h u

/-- The cross entropy. -/
theorem pay23_apply (v16 v18 : FVec Ideal S24x3 .f32) (v65 v82 : FVec Ideal S24x8192 .f32) (v83 : FVec Ideal S1x8192 .f32)
    (v92 v93 : FVec Ideal S24x8192 .f32) (h : Fin 24) (u : Fin 1) :
    k0_pay23 v16 v18 v65 v82 v83 v92 v93 (ix2 h u)
      = ∑ l : Fin 8192, Cert.Spec.ce (k0_pay22 v65 v92 v93 (ix2 h l)) (k0_pay21 v16 v18 v82 v83 (ix2 h l)) :=
  rowsum_apply _ h u

end Sums

/-! ## The four columns side by side, added to the block found -/

section Columns
variable {α : Type}

/-- Four columns set side by side read, at `(h, k)`, column `k` at row `h`. -/
theorem concat4_apply (p0 p1 p2 p3 : S24x1.Idx → α) (h : Fin 24) (k : Fin 4) :
    concatenate S24x4 1 [⟨S24x1, p0⟩, ⟨S24x1, p1⟩, ⟨S24x1, p2⟩, ⟨S24x1, p3⟩]
        concatenates_S24x1_S24x1_S24x1_S24x1_S24x4_d1 (ix2 h k)
      = (match k with | 0 => p0 | 1 => p1 | 2 => p2 | 3 => p3) (ix2 h 0) := by
  have hi : ∀ (j : Fin 4) (b : Fin S24x1.rank), b.cast (rfl : S24x1.rank = S24x4.rank) ≠ (1 : Fin S24x4.rank) →
      ((ix2 h (0 : Fin 1) : S24x1.Idx) b).val = ((ix2 h j : S24x4.Idx) (b.cast rfl)).val := fun j b hb =>
    match b, hb with
    | ⟨0, _⟩, _ => rfl
    | ⟨1, _⟩, hb => absurd rfl hb
  match k with
  | 0 => exact concatenate_apply_piece (1 : Fin S24x4.rank) _ _ (ix2 h 0) 0 (by show (0 : ℕ) < 4; omega) S24x1 p0 rfl rfl 0 rfl (ix2 h 0) (hi 0) rfl
  | 1 => exact concatenate_apply_piece (1 : Fin S24x4.rank) _ _ (ix2 h 1) 1 (by show (1 : ℕ) < 4; omega) S24x1 p1 rfl rfl 1 rfl (ix2 h 0) (hi 1) rfl
  | 2 => exact concatenate_apply_piece (1 : Fin S24x4.rank) _ _ (ix2 h 2) 2 (by show (2 : ℕ) < 4; omega) S24x1 p2 rfl rfl 2 rfl (ix2 h 0) (hi 2) rfl
  | 3 => exact concatenate_apply_piece (1 : Fin S24x4.rank) _ _ (ix2 h 3) 3 (by show (3 : ℕ) < 4; omega) S24x1 p3 rfl rfl 3 rfl (ix2 h 0) (hi 3) rfl

/-- The stored block at `(0, h, k)`: the block found there plus column `k` at row `h`, the fourth column being the
    sum of the labels. -/
theorem pay1_apply (v118 : FVec Ideal S24x8192 .f32) (v135 v138 v140 : FVec Ideal S24x1 .f32) (acc : Vec Ideal S1x24x4 .f32)
    (h : Fin 24) (k : Fin 4) :
    k0_pay1 v118 v135 v138 v140 acc (ix3 0 h k)
      = acc (ix3 0 h k) + (match k with
          | 0 => v135 (ix2 h 0) | 1 => v138 (ix2 h 0) | 2 => v140 (ix2 h 0) | 3 => ∑ l : Fin 8192, v118 (ix2 h l)) := by
  simp only [k0_pay1]
  refine (shapeCast_ab_1ab_apply _ shapeCasts_S24x4_S1x24x4 0 h k).trans ?_
  rw [addf_apply, shapeCast_1ab_ab_apply acc shapeCasts_S1x24x4_S24x4 h k, concat4_apply]
  congr 1
  match k with
  | 0 => rfl
  | 1 => rfl
  | 2 => rfl
  | 3 => exact rowsum_apply v118 h 0

end Columns

/-! ## The stored value and the cleared value -/

/-- The stored block at row `h`, column `k`: the block found plus the sum over the tile's points of column `k`'s term. -/
theorem stored_apply (x0 : Vec Ideal S1x8192x9 .f32) (x1 x2 : Vec Ideal S1x24x2x3 .f32) (acc : Vec Ideal S1x24x4 .f32)
    (h : Fin 24) (k : Fin 4) :
    stored (F := Ideal) x0 x1 x2 acc (ix3 0 h k) = acc (ix3 0 h k) + ∑ l : Fin 8192, tileTerm x0 x1 x2 k h l := by
  unfold stored
  rw [pay1_apply]
  congr 1
  match k with
  | 0 =>
    rw [pay23_apply]
    exact Finset.sum_congr rfl fun l _ => by rw [label_apply x0 x1 x2, prob_apply x0 x1 x2]; rfl
  | 1 =>
    rw [pay24_apply]
    exact Finset.sum_congr rfl fun l _ => by rw [label_apply x0 x1 x2, prob_apply x0 x1 x2]; rfl
  | 2 =>
    rw [pay25_apply]
    exact Finset.sum_congr rfl fun l _ => prob_apply x0 x1 x2 h l
  | 3 => exact Finset.sum_congr rfl fun l _ => label_apply x0 x1 x2 h l

/-- The block the first tile stores before it accumulates is zero everywhere. -/
theorem cleared_apply (h : Fin 24) (k : Fin 4) : k0_pay2 (F := Ideal) (ix3 0 h k) = 0 :=
  Ideal.ofBits_zero_f32

end Cert.KernelIdeal.Body

end
-- ==== Proof.KIValue.lean ====
/-
  The kernel's output array after the pipelined region, as one closed function of the three argument arrays.

  Point t = 5 b + j of the grid works on batch b and on tile j (8192 of the 40960 points). What the body stores into
  the output block is the block it found there plus, per box h and per column k, the sum over the tile's points of the
  column's summand; at tile 0 the block it finds is the zero block it has just stored. So after tile j of batch b the
  block holds the sum over tiles 0..j of the tile sums, and after tile 4 the row b of the array is written back:
  OUT b h k = Σ_j Σ_l term k b h (8192 j + l).
-/
import proofs.«176227_j76828374991464_1_alg».proof.Proof.KIFrame
import proofs.«176227_j76828374991464_1_alg».proof.Proof.KIStored
import proofs.«176227_j76828374991464_1_alg».proof.Proof.KIBody
import proofs.«176227_j76828374991464_1_alg».proof.Proof.Spec
import Idealize.ShloMosaic.Lib.Pipeline.Value
import Idealize.ShloMosaic.Lib.ValueIdx

set_option maxRecDepth 16384
set_option maxHeartbeats 40000000

noncomputable section

namespace Cert.KernelIdeal.Val

open Cert.KernelIdeal Cert.KernelIdeal.Gen Cert.KernelIdeal.Fr Cert.KernelIdeal.Body
open Idealize.ShloMosaic Idealize.ShloMosaic.TcCoe Idealize.ShloMosaic.ValueIdx Idealize.SL.Sem
open Idealize.ShloMosaic.Pipeline (Dat)
open scoped BigOperators

/-! ## What each control case leaves in the output block -/

section Stored

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a later tile the one store covers the block: what is read back is the stored value, over the block found. -/
theorem out0_B_3_eq (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : ¬cond0_0 i)
    (x0 : Vec F S1x8192x9 .f32) (x1 : Vec F S1x24x2x3 .f32) (x2 : Vec F S1x24x2x3 .f32) (xo3 : Vec F S1x24x4 .f32) :
    out0_B_3 c i arg2 harg2 arg3 harg3 arg4 harg4 arg5 harg5 hc0 x0 x1 x2 xo3 = stored x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz3]
  simp only [View.readAt_eq_ld, harg2.read_unread, harg3.read_unread, harg4.read_unread, harg5.read_unread, View.ld_unit_zero (S := S1x24x4) hz3, View.ld_unit_zero (S := S1x8192x9) hz3, View.ld_unit_zero (S := S1x24x2x3) hz4]
  rfl

/-- At a first tile the block read back after the clearing store is the cleared block, and the last store covers. -/
theorem out0_A_3_eq (c : Dev nD) (i : grid0.Coords) (arg2 : Memref sig .tc .vmem S1x8192x9 .f32) (harg2 : arg2.IsWhole) (arg3 : Memref sig .tc .vmem S1x24x2x3 .f32) (harg3 : arg3.IsWhole) (arg4 : Memref sig .tc .vmem S1x24x2x3 .f32) (harg4 : arg4.IsWhole) (arg5 : Memref sig .tc .vmem S1x24x4 .f32) (harg5 : arg5.IsWhole) (hc0 : cond0_0 i)
    (x0 : Vec F S1x8192x9 .f32) (x1 : Vec F S1x24x2x3 .f32) (x2 : Vec F S1x24x2x3 .f32) :
    out0_A_3 c i arg2 harg2 arg3 harg3 arg4 harg4 arg5 harg5 hc0 x0 x1 x2 = stored x0 x1 x2 (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x24x4) hz3, View.readCov_unit_zero (S := S1x24x4) _ hz3]
  simp only [View.readAt_eq_ld, harg2.read_unread, harg3.read_unread, harg4.read_unread, View.ld_unit_zero (S := S1x24x4) hz3, View.ld_unit_zero (S := S1x8192x9) hz3, View.ld_unit_zero (S := S1x24x2x3) hz4]
  rfl

end Stored

/-! ## The blocks the region finds, read at an index -/

variable (m : (ℓ : Loc nD τ sig) → Buf (Elt Ideal) ℓ)

/-- The points array on core `c`. -/
abbrev Xa (c : Dev nD) : (⟨3, ![16, 40960, 9]⟩ : Shape).Idx → EReal := m ((c : Thread nD τ).loc main_arg0)
/-- The ground-truth boxes on core `c`. -/
abbrev Ya (c : Dev nD) : (⟨4, ![16, 24, 2, 3]⟩ : Shape).Idx → EReal := m ((c : Thread nD τ).loc main_arg2)
/-- The predicted boxes on core `c`. -/
abbrev Pa (c : Dev nD) : (⟨4, ![16, 24, 2, 3]⟩ : Shape).Idx → EReal := m ((c : Thread nD τ).loc main_arg1)

/-- The block indices over the grid: at point t the batch is t / 5 on the leading axis of every window, the tile t % 5 on
    the point axis of the points window, and every other block index is zero. -/
theorem idx_facts : ∀ t : Fin cfg0.N,
    win0_0.index t (0 : Fin 3) = t.val / 5 ∧ win0_0.index t (1 : Fin 3) = t.val % 5 ∧ win0_0.index t (2 : Fin 3) = 0
    ∧ win0_1.index t (0 : Fin 4) = t.val / 5 ∧ win0_1.index t (1 : Fin 4) = 0 ∧ win0_1.index t (2 : Fin 4) = 0 ∧ win0_1.index t (3 : Fin 4) = 0
    ∧ win0_2.index t (0 : Fin 4) = t.val / 5 ∧ win0_2.index t (1 : Fin 4) = 0 ∧ win0_2.index t (2 : Fin 4) = 0 ∧ win0_2.index t (3 : Fin 4) = 0
    ∧ win0_3.index t (0 : Fin 3) = t.val / 5 ∧ win0_3.index t (1 : Fin 3) = 0 ∧ win0_3.index t (2 : Fin 3) = 0 :=
  (by decide +kernel : ∀ t : Fin grid0.N, _)

/-- The point block at point t = 5 b + j: point l of the block is point 8192 j + l of batch b. -/
theorem iblk0_apply (c : Dev nD) (t : Fin cfg0.N) (b : Fin 16) (j : Fin 5) (ht : t.val = 5 * b.val + j.val) (l : Fin 8192) (ch : Fin 9) :
    (iblk m c 0 t : Vec Ideal S1x8192x9 .f32) (ix3 0 l ch) = Xa m c (ix3 b (Cert.Spec.tilePt j l) ch) := by
  obtain ⟨e0, e1, e2, -⟩ := idx_facts t
  have hb := b.isLt; have hj := j.isLt
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = b.val; rw [e0]; omega
  | ⟨1, _⟩ => show win0_0.index t (1 : Fin 3) * 8192 + 1 * l.val = 8192 * j.val + l.val; rw [e1]; omega
  | ⟨2, _⟩ => show win0_0.index t (2 : Fin 3) * 9 + 1 * ch.val = ch.val; rw [e2]; omega

/-- The ground-truth box block at point t = 5 b + j is row b of the boxes. -/
theorem iblk1_apply (c : Dev nD) (t : Fin cfg0.N) (b : Fin 16) (j : Fin 5) (ht : t.val = 5 * b.val + j.val) (h : Fin 24) (a : Fin 2) (d : Fin 3) :
    (iblk m c 1 t : Vec Ideal S1x24x2x3 .f32) (ix4 0 h a d) = Ya m c (ix4 b h a d) := by
  obtain ⟨-, -, -, e0, e1, e2, e3, -⟩ := idx_facts t
  have hb := b.isLt; have hj := j.isLt
  unfold iblk
  rw [View.read_apply]
  show V m c main_arg2 _ = m ((c : Thread nD τ).loc main_arg2) _
  rw [V_main_arg2]
  congr 1
  funext x
  apply Fin.ext
  match x with
  | ⟨0, _⟩ => show win0_1.index t (0 : Fin 4) * 1 + 1 * 0 = b.val; rw [e0]; omega
  | ⟨1, _⟩ => show win0_1.index t (1 : Fin 4) * 24 + 1 * h.val = h.val; rw [e1]; omega
  | ⟨2, _⟩ => show win0_1.index t (2 : Fin 4) * 2 + 1 * a.val = a.val; rw [e2]; omega
  | ⟨3, _⟩ => show win0_1.index t (3 : Fin 4) * 3 + 1 * d.val = d.val; rw [e3]; omega

/-- The predicted box block, likewise. -/
theorem iblk2_apply (c : Dev nD) (t : Fin cfg0.N) (b : Fin 16) (j : Fin 5) (ht : t.val = 5 * b.val + j.val) (h : Fin 24) (a : Fin 2) (d : Fin 3) :
    (iblk m c 2 t : Vec Ideal S1x24x2x3 .f32) (ix4 0 h a d) = Pa m c (ix4 b h a d) := by
  obtain ⟨-, -, -, -, -, -, -, e0, e1, e2, e3, -⟩ := idx_facts t
  have hb := b.isLt; have hj := j.isLt
  unfold iblk
  rw [View.read_apply]
  show V m c main_arg1 _ = m ((c : Thread nD τ).loc main_arg1) _
  rw [V_main_arg1]
  congr 1
  funext x
  apply Fin.ext
  match x with
  | ⟨0, _⟩ => show win0_2.index t (0 : Fin 4) * 1 + 1 * 0 = b.val; rw [e0]; omega
  | ⟨1, _⟩ => show win0_2.index t (1 : Fin 4) * 24 + 1 * h.val = h.val; rw [e1]; omega
  | ⟨2, _⟩ => show win0_2.index t (2 : Fin 4) * 2 + 1 * a.val = a.val; rw [e2]; omega
  | ⟨3, _⟩ => show win0_2.index t (3 : Fin 4) * 3 + 1 * d.val = d.val; rw [e3]; omega

/-- The three input blocks at a point and the accumulator after it, at their literal types. -/
abbrev xblk (c : Dev nD) (t : Fin cfg0.N) : Vec Ideal S1x8192x9 .f32 := iblk m c 0 t
abbrev yblk (c : Dev nD) (t : Fin cfg0.N) : Vec Ideal S1x24x2x3 .f32 := iblk m c 1 t
abbrev pblk (c : Dev nD) (t : Fin cfg0.N) : Vec Ideal S1x24x2x3 .f32 := iblk m c 2 t
abbrev accAt (c : Dev nD) (n : ℕ) (hn : n < cfg0.N) : Vec Ideal S1x24x4 .f32 := outsAt0 m c n hn

/-! ## One point of a tile against one box: the tile's blocks and the whole arrays agree -/

/-- If the three blocks are row b of the boxes and tile j of batch b of the points, the summand of column k computed in
    the blocks is the arrays' summand at point 8192 j + l. -/
theorem tileTerm_eq (x0 : Vec Ideal S1x8192x9 .f32) (x1 x2 : Vec Ideal S1x24x2x3 .f32)
    (X : (⟨3, ![16, 40960, 9]⟩ : Shape).Idx → EReal) (P Y : (⟨4, ![16, 24, 2, 3]⟩ : Shape).Idx → EReal)
    (b : Fin 16) (j : Fin 5)
    (h0 : ∀ (l : Fin 8192) (ch : Fin 9), x0 (ix3 0 l ch) = X (ix3 b (Cert.Spec.tilePt j l) ch))
    (h1 : ∀ (h : Fin 24) (a : Fin 2) (d : Fin 3), x1 (ix4 0 h a d) = Y (ix4 b h a d))
    (h2 : ∀ (h : Fin 24) (a : Fin 2) (d : Fin 3), x2 (ix4 0 h a d) = P (ix4 b h a d))
    (k : Fin 4) (h : Fin 24) (l : Fin 8192) :
    tileTerm x0 x1 x2 k h l = Cert.Spec.term X P Y k b h (Cert.Spec.tilePt j l) := by
  unfold tileTerm Cert.Spec.term Cert.Spec.gAt Cert.Spec.pAt
  simp only [h0, h1, h2]
  match k with
  | 0 => rfl
  | 1 => rfl
  | 2 => rfl
  | 3 => rfl

/-! ## The sum over the tiles 0..n -/

section Sums

variable (X : (⟨3, ![16, 40960, 9]⟩ : Shape).Idx → EReal) (P Y : (⟨4, ![16, 24, 2, 3]⟩ : Shape).Idx → EReal)

/-- Column k of box h of batch b summed over the points of tiles 0..n. -/
def accSum (k : Fin 4) (b : Fin 16) (h : Fin 24) (n : ℕ) : EReal :=
  ∑ j' ∈ Finset.univ.filter (fun j' : Fin 5 => j'.val ≤ n), ∑ l : Fin 8192, Cert.Spec.term X P Y k b h (Cert.Spec.tilePt j' l)

/-- The kernel's output array: every column summed over all five tiles. -/
def OUT (b : Fin 16) (h : Fin 24) (k : Fin 4) : EReal :=
  ∑ j : Fin 5, ∑ l : Fin 8192, Cert.Spec.term X P Y k b h (Cert.Spec.tilePt j l)

theorem accSum_zero (k : Fin 4) (b : Fin 16) (h : Fin 24) :
    accSum X P Y k b h 0 = ∑ l : Fin 8192, Cert.Spec.term X P Y k b h (Cert.Spec.tilePt 0 l) := by
  unfold accSum
  have e : (Finset.univ.filter fun j' : Fin 5 => j'.val ≤ 0) = {0} := by
    ext j'
    simp only [Finset.mem_filter, Finset.mem_univ, true_and, Finset.mem_singleton, Fin.ext_iff]
    show j'.val ≤ 0 ↔ j'.val = 0
    omega
  rw [e, Finset.sum_singleton]

theorem accSum_succ (k : Fin 4) (b : Fin 16) (h : Fin 24) (n : ℕ) (hn : n + 1 < 5) :
    accSum X P Y k b h (n + 1)
      = accSum X P Y k b h n + ∑ l : Fin 8192, Cert.Spec.term X P Y k b h (Cert.Spec.tilePt ⟨n + 1, hn⟩ l) := by
  unfold accSum
  have e : (Finset.univ.filter fun j' : Fin 5 => j'.val ≤ n + 1)
      = insert (⟨n + 1, hn⟩ : Fin 5) (Finset.univ.filter fun j' : Fin 5 => j'.val ≤ n) := by
    ext j'
    simp only [Finset.mem_filter, Finset.mem_univ, true_and, Finset.mem_insert, Fin.ext_iff]
    omega
  rw [e, Finset.sum_insert (by simp), add_comm]

theorem accSum_four (k : Fin 4) (b : Fin 16) (h : Fin 24) : accSum X P Y k b h 4 = OUT X P Y b h k := by
  unfold accSum OUT
  rw [Finset.filter_true_of_mem (fun j' _ => by have := j'.isLt; omega)]

end Sums

/-! ## The accumulator after tile j of batch b -/

/-- At the first tile of batch b the block read back is zero plus the tile's sums. -/
theorem acc_first (c : Dev nD) (t : Fin cfg0.N) (h0 : t.val % 5 = 0) (b : Fin 16) (ht : t.val = 5 * b.val + (0 : Fin 5).val)
    (h : Fin 24) (k : Fin 4) :
    accAt m c t.val t.isLt (ix3 0 h k) = ∑ l : Fin 8192, Cert.Spec.term (Xa m c) (Pa m c) (Ya m c) k b h (Cert.Spec.tilePt 0 l) := by
  refine (congrFun ((outsAt0_A m c t h0).trans (out0_A_3_eq (F := Ideal) c (grid0.coords t) (ms0_0 t) (hs0_0 t) (ms0_1 t) (hs0_1 t)
    (ms0_2 t) (hs0_2 t) (ms0_3 t) (hs0_3 t) ((hcond0_0 t).mpr h0) (iblk m c 0 t) (iblk m c 1 t) (iblk m c 2 t))) (ix3 0 h k)).trans ?_
  refine (stored_apply (xblk m c t) (yblk m c t) (pblk m c t) (k0_pay2 (F := Ideal)) h k).trans ?_
  rw [cleared_apply, zero_add]
  exact Finset.sum_congr rfl fun l _ => tileTerm_eq (xblk m c t) (yblk m c t) (pblk m c t) (Xa m c) (Pa m c) (Ya m c) b 0
    (iblk0_apply m c t b 0 ht) (iblk1_apply m c t b 0 ht) (iblk2_apply m c t b 0 ht) k h l

/-- At tile j ≥ 1 of batch b it is what the tile before left plus the tile's sums. -/
theorem acc_later (c : Dev nD) (t : Fin cfg0.N) (h0 : ¬t.val % 5 = 0) (b : Fin 16) (j : Fin 5) (ht : t.val = 5 * b.val + j.val)
    (h : Fin 24) (k : Fin 4) :
    accAt m c t.val t.isLt (ix3 0 h k)
      = accAt m c (t.val - 1) (Nat.lt_of_le_of_lt (Nat.sub_le _ _) t.isLt) (ix3 0 h k)
        + ∑ l : Fin 8192, Cert.Spec.term (Xa m c) (Pa m c) (Ya m c) k b h (Cert.Spec.tilePt j l) := by
  refine (congrFun ((outsAt0_B m c t h0).trans (out0_B_3_eq (F := Ideal) c (grid0.coords t) (ms0_0 t) (hs0_0 t) (ms0_1 t) (hs0_1 t)
    (ms0_2 t) (hs0_2 t) (ms0_3 t) (hs0_3 t) (fun hh => h0 ((hcond0_0 t).mp hh)) (iblk m c 0 t) (iblk m c 1 t) (iblk m c 2 t)
    (outsAt0 m c (t.val - 1) (Nat.lt_of_le_of_lt (Nat.sub_le _ _) t.isLt)))) (ix3 0 h k)).trans ?_
  refine (stored_apply (xblk m c t) (yblk m c t) (pblk m c t) (accAt m c (t.val - 1) (Nat.lt_of_le_of_lt (Nat.sub_le _ _) t.isLt)) h k).trans ?_
  exact congrArg _ (Finset.sum_congr rfl fun l _ => tileTerm_eq (xblk m c t) (yblk m c t) (pblk m c t) (Xa m c) (Pa m c) (Ya m c) b j
    (iblk0_apply m c t b j ht) (iblk1_apply m c t b j ht) (iblk2_apply m c t b j ht) k h l)

/-- After point n = 5 b + j the output block holds, per box and column, the sum over tiles 0..j of batch b: by
    induction on the point. -/
theorem acc_at (c : Dev nD) : ∀ (n : ℕ) (hn : n < cfg0.N) (b : Fin 16) (hb : n / 5 = b.val) (h : Fin 24) (k : Fin 4),
    accAt m c n hn (ix3 0 h k) = accSum (Xa m c) (Pa m c) (Ya m c) k b h (n % 5)
  | 0, hn, b, hb, h, k => by
    rw [Nat.zero_mod, accSum_zero]
    exact acc_first m c ⟨0, hn⟩ (Nat.zero_mod _) b (by show 0 = 5 * b.val + 0; omega) h k
  | n + 1, hn, b, hb, h, k => by
    have hN : n + 1 < 80 := lt_of_lt_of_eq hn (show cfg0.N = 80 from N_0)
    by_cases h0 : (n + 1) % 5 = 0
    · rw [h0, accSum_zero]
      exact acc_first m c ⟨n + 1, hn⟩ h0 b (by show n + 1 = 5 * b.val + 0; omega) h k
    · have e5 : (n + 1) % 5 = n % 5 + 1 := by omega
      have ih := acc_at c n (Nat.lt_of_succ_lt hn) b (by omega) h k
      rw [e5, accSum_succ (Xa m c) (Pa m c) (Ya m c) k b h (n % 5) (by omega), ← ih]
      exact acc_later m c ⟨n + 1, hn⟩ h0 b ⟨n % 5 + 1, by omega⟩ (by show n + 1 = 5 * b.val + (n % 5 + 1); omega) h k

/-- Point 5 b + j is a point of the grid. -/
theorem tile_lt (b : Fin 16) (j : Fin 5) : 5 * b.val + j.val < cfg0.N := by
  rw [show cfg0.N = 80 from N_0]; have := b.isLt; have := j.isLt; omega

/-- The accumulator after tile j of batch b, spelled over the pair (b, j). -/
theorem acc_apply (c : Dev nD) (b : Fin 16) (j : Fin 5) (h : Fin 24) (k : Fin 4) :
    accAt m c (5 * b.val + j.val) (tile_lt b j) (ix3 0 h k)
      = ∑ j' ∈ Finset.univ.filter (fun j' : Fin 5 => j'.val ≤ j.val),
          ∑ l : Fin 8192, Cert.Spec.term (Xa m c) (Pa m c) (Ya m c) k b h (Cert.Spec.tilePt j' l) := by
  have hb := b.isLt; have hj := j.isLt
  have e := acc_at m c (5 * b.val + j.val) (tile_lt b j) b (by omega) h k
  rw [show (5 * b.val + j.val) % 5 = j.val from by omega] at e
  exact e

/-! ## From the blocks to the array -/

/-- The array the region leaves on core `c`. -/
abbrev outArr (c : Dev nD) : (⟨3, ![16, 24, 4]⟩ : Shape).Idx → EReal :=
  fun i => OUT (Xa m c) (Pa m c) (Ya m c) (i 0) (i 1) (i 2)

/-- What the write-back after tile 4 of batch b writes is row b of that array. -/
theorem flushed3_eq (c : Dev nD) (t : Fin cfg0.N) (hf : (cfg0.win 3).flush t = true) :
    (dats m 0 c).flushed 3 t = ((cfg0.win 3).blk t).view.read (Elt Ideal) (outArr m c) := by
  have hN : t.val < 80 := lt_of_lt_of_eq t.isLt (show cfg0.N = 80 from N_0)
  have h4 : t.val % 5 = 4 := (flush0_3 t).mp hf
  obtain ⟨-, -, -, -, -, -, -, -, -, -, -, e0, e1, e2⟩ := idx_facts t
  show (cfg0.win 3).cut (grid0.coords t) ((dats m 0 c).after 3 t) = _
  rw [after0_3]
  funext y
  obtain ⟨p, h, k, rfl⟩ : ∃ (p : Fin 1) (h : Fin 24) (k : Fin 4), y = ix3 p h k := ⟨y 0, y 1, y 2, eq_ix3 y⟩
  obtain rfl : p = 0 := Subsingleton.elim _ _
  rw [View.read_apply]
  show accAt m c t.val t.isLt (ix3 0 h k) = outArr m c (((cfg0.win 3).blk t).view.emb (ix3 0 h k))
  rw [acc_at m c t.val t.isLt ⟨t.val / 5, by omega⟩ rfl h k, h4, accSum_four]
  show OUT (Xa m c) (Pa m c) (Ya m c) _ _ _ = OUT (Xa m c) (Pa m c) (Ya m c) _ _ _
  congr 1 <;> apply Fin.ext
  · show t.val / 5 = win0_3.index t (0 : Fin 3) * 1 + 1 * 0; rw [e0]; omega
  · show h.val = win0_3.index t (1 : Fin 3) * 24 + 1 * h.val; rw [e1]; omega
  · show k.val = win0_3.index t (2 : Fin 3) * 4 + 1 * k.val; rw [e2]; omega

/-- An index of the array is in point t's block iff each coordinate is in the block's range on its axis. -/
theorem mem_blk3 (t : Fin cfg0.N) (i : S16x24x4.Idx) :
    i ∈ ((cfg0.win 3).blk t).view.set ↔ ∀ a : Fin 3, win0_3.index t a * S1x24x4.size a ≤ (i a).val ∧ (i a).val < win0_3.index t a * S1x24x4.size a + S1x24x4.size a := by
  show i ∈ ((View.whole main_v0).slice (win0_3.rect t)).set ↔ _
  rw [View.set_slice_whole, Rect.mem_set_unit]
  exact Iff.rfl

/-- Row b of the array is covered by the write-back at point 5 b + 4; so the array ends as `outArr`. -/
theorem final3 (c : Dev nD) : (dats m 0 c).arrAt 3 cfg0.N = outArr m c :=
  (dats m 0 c).arrAt_eq_of_cover 3 (outArr m c) (flushed3_eq m c) fun i => by
    have hi0 : (i 0 : Nat) < 16 := (i 0).isLt
    have hi1 : (i 1 : Nat) < 24 := (i 1).isLt
    have hi2 : (i 2 : Nat) < 4 := (i 2).isLt
    have ht : 5 * (i 0 : Nat) + 4 < cfg0.N := by rw [show cfg0.N = 80 from N_0]; omega
    refine ⟨⟨5 * (i 0 : Nat) + 4, ht⟩, (flush0_3 _).mpr (by show (5 * (i 0 : Nat) + 4) % 5 = 4; omega), ?_⟩
    obtain ⟨-, -, -, -, -, -, -, -, -, -, -, e0, e1, e2⟩ := idx_facts ⟨5 * (i 0 : Nat) + 4, ht⟩
    rw [mem_blk3]
    intro a
    match a with
    | ⟨0, _⟩ =>
      show win0_3.index ⟨5 * (i 0 : Nat) + 4, ht⟩ (0 : Fin 3) * 1 ≤ (i 0 : Nat) ∧ (i 0 : Nat) < win0_3.index ⟨5 * (i 0 : Nat) + 4, ht⟩ (0 : Fin 3) * 1 + 1
      rw [e0]; show (5 * (i 0 : Nat) + 4) / 5 * 1 ≤ (i 0 : Nat) ∧ (i 0 : Nat) < (5 * (i 0 : Nat) + 4) / 5 * 1 + 1; omega
    | ⟨1, _⟩ =>
      show win0_3.index ⟨5 * (i 0 : Nat) + 4, ht⟩ (1 : Fin 3) * 24 ≤ (i 1 : Nat) ∧ (i 1 : Nat) < win0_3.index ⟨5 * (i 0 : Nat) + 4, ht⟩ (1 : Fin 3) * 24 + 24
      rw [e1]; omega
    | ⟨2, _⟩ =>
      show win0_3.index ⟨5 * (i 0 : Nat) + 4, ht⟩ (2 : Fin 3) * 4 ≤ (i 2 : Nat) ∧ (i 2 : Nat) < win0_3.index ⟨5 * (i 0 : Nat) + 4, ht⟩ (2 : Fin 3) * 4 + 4
      rw [e2]; omega

/-- The output array after the region, entry by entry. -/
theorem final3_apply (c : Dev nD) (b : Fin 16) (h : Fin 24) (k : Fin 4) :
    ((dats m 0 c).arrAt 3 cfg0.N : (⟨3, ![16, 24, 4]⟩ : Shape).Idx → EReal) (ix3 b h k) = OUT (Xa m c) (Pa m c) (Ya m c) b h k :=
  congrFun (final3 m c) (ix3 b h k)

end Cert.KernelIdeal.Val

end
-- ==== Proof.TailChain.lean ====
/-
  The host operations after the kernel's region against the reference's last stages.

  After its region the kernel program cuts its [16, 24, 4] result into four [16, 24] columns — per batch and box the
  summed cross entropy, the soft true positives TP, the soft count and the hard count — and from there on does what
  the reference does: the per-box weight w (1 where the ground-truth box's six numbers sum to more than 0), the IoU
  term −TP / (TP + FP + FN + 1e-6) averaged over the weighted boxes, the two L2 terms from the box arrays alone, the
  cross-entropy term Σ ce·w / (Σ w · 40960), and their sum. The reference reaches the same four [16, 24] arrays by
  reducing over the 40960 points, except for the cross entropy, which it weights point by point and sums over all
  three axes at once.

  So each result of the kernel program, computed from ANY buffer contents W the later operations start from, equals
  the reference's stage for it as soon as the three columns TP, soft count, hard count equal the reference's three
  row sums and the weighted sum of the cross-entropy column equals the reference's weighted triple sum: everything
  downstream of those is one and the same chain of operations on both sides, and is never opened — the two sides are
  compared as terms. Stated for any float instance.
-/
import proofs.«176227_j76828374991464_1_alg».proof.Proof.Gen.KernelIdeal.Launch
import proofs.«176227_j76828374991464_1_alg».proof.Proof.RefRead
import Idealize.ShloMosaic.Lib.StableHlo.Run

set_option maxRecDepth 16384
set_option maxHeartbeats 40000000

noncomputable section

namespace Cert.Tail

open Cert.KernelIdeal Cert.KernelIdeal.Gen Idealize.ShloMosaic Idealize.ShloMosaic.TcCoe Idealize.SL.Sem Idealize.ShloMosaic.StableHlo

variable {F : FTy → Type} [FloatOps F]

/-- Column 0 of the kernel's result array, as the later operations cut it out: one slice along the last axis, then the unit axis dropped. -/
def col0 (o : (⟨S16x24x4, .f32⟩ : BufTy).Contents (Elt F)) :=
  fun i => shapeCast main_v2.ty.shape (extractStridedSlice S16x24x1 ![0, 0, 0] o slices_S16x24x4_S16x24x1_0_0_0) shapeCasts_S16x24x1_S16x24 i
/-- Column 1 of the kernel's result array, as the later operations cut it out: one slice along the last axis, then the unit axis dropped. -/
def col1 (o : (⟨S16x24x4, .f32⟩ : BufTy).Contents (Elt F)) :=
  fun i => shapeCast main_v4.ty.shape (extractStridedSlice S16x24x1 ![0, 0, 1] o slices_S16x24x4_S16x24x1_0_0_1) shapeCasts_S16x24x1_S16x24 i
/-- Column 2 of the kernel's result array, as the later operations cut it out: one slice along the last axis, then the unit axis dropped. -/
def col2 (o : (⟨S16x24x4, .f32⟩ : BufTy).Contents (Elt F)) :=
  fun i => shapeCast main_v6.ty.shape (extractStridedSlice S16x24x1 ![0, 0, 2] o slices_S16x24x4_S16x24x1_0_0_2) shapeCasts_S16x24x1_S16x24 i
/-- Column 3 of the kernel's result array, as the later operations cut it out: one slice along the last axis, then the unit axis dropped. -/
def col3 (o : (⟨S16x24x4, .f32⟩ : BufTy).Contents (Elt F)) :=
  fun i => shapeCast main_v8.ty.shape (extractStridedSlice S16x24x1 ![0, 0, 3] o slices_S16x24x4_S16x24x1_0_0_3) shapeCasts_S16x24x1_S16x24 i

/-- The per-box weight as the kernel program's host code spells it: 1 where the six numbers of the ground-truth box sum to
    more than 0, else 0. -/
def weight (y : (⟨S16x24x2x3, .f32⟩ : BufTy).Contents (Elt F)) :=
  uitofp (F := F) .f32 (cmpf (F := F) .ogt
    (Host.reduceAdd (fun i => shapeCast main_v9.ty.shape y shapeCasts_S16x24x2x3_S16x24x6 i) (constant S_ .f32 0#32) reducesTo_S16x24x6_S16x24_d2 h_S_)
    (broadcastInDim S16x24 ![] bcast_S_S16x24 (constant S_ .f32 0#32)))

/-- The weighted sum over batches and boxes of the cross-entropy column. -/
def ceSum (o : (⟨S16x24x4, .f32⟩ : BufTy).Contents (Elt F)) (y : (⟨S16x24x2x3, .f32⟩ : BufTy).Contents (Elt F)) :=
  Host.reduceAdd (mulf (col0 o) (weight y)) (constant S_ .f32 0#32) reducesTo_S16x24_S_d0_1 h_S_

/-- The weight is the reference's (the same four operations of the ground-truth boxes). -/
theorem weight_eq (y : (⟨S16x24x2x3, .f32⟩ : BufTy).Contents (Elt F)) : weight y = Cert.ReferenceIdeal.ReadP.val_main_v51 (F := F) y := by
  unfold weight
  simp only [Cert.ReferenceIdeal.ReadP.val_main_v51, Cert.ReferenceIdeal.ReadP.val_main_v50, Cert.ReferenceIdeal.ReadP.val_main_v49, Cert.ReferenceIdeal.ReadP.val_main_v48, Cert.ReferenceIdeal.ReadP.val_main_v47, Cert.ReferenceIdeal.ReadP.val_main_cst_9, Cert.ReferenceIdeal.ReadP.val_main_cst_10]
  rfl

section Matches

variable (W : Valuation τ sig (Elt F))
  (x0 : (⟨Cert.ReferenceIdeal.S16x40960x9, .f32⟩ : BufTy).Contents (Elt F))
  (x1 x2 : (⟨Cert.ReferenceIdeal.S16x24x2x3, .f32⟩ : BufTy).Contents (Elt F))

/-- The IoU term. -/
theorem iou_match (hY : W (Proc.devRef .tc main_arg2) = x2)
    (h1 : col1 (W (Proc.devRef .tc main_v0)) = Cert.ReferenceIdeal.ReadP.val_main_v74 x0 x1 x2)
    (h2 : col2 (W (Proc.devRef .tc main_v0)) = Cert.ReferenceIdeal.ReadP.val_main_v75 x0 x1)
    (h3 : col3 (W (Proc.devRef .tc main_v0)) = Cert.ReferenceIdeal.ReadP.val_main_v77 x0 x2) :
    StableHlo.after hostOps1 W (Proc.devRef .tc main_v30) = Cert.ReferenceIdeal.ReadP.val_main_v88 (F := F) x0 x1 x2 := by
  after_results_simp
  unfold col1 at h1; unfold col2 at h2; unfold col3 at h3
  rw [h1, h2, h3, hY]
  simp only [
    Cert.ReferenceIdeal.ReadP.val_main_cst,
    Cert.ReferenceIdeal.ReadP.val_main_cst_0,
    Cert.ReferenceIdeal.ReadP.val_main_cst_1,
    Cert.ReferenceIdeal.ReadP.val_main_cst_2,
    Cert.ReferenceIdeal.ReadP.val_main_cst_3,
    Cert.ReferenceIdeal.ReadP.val_main_cst_4,
    Cert.ReferenceIdeal.ReadP.val_main_cst_5,
    Cert.ReferenceIdeal.ReadP.val_main_cst_6,
    Cert.ReferenceIdeal.ReadP.val_main_cst_7,
    Cert.ReferenceIdeal.ReadP.val_main_cst_8,
    Cert.ReferenceIdeal.ReadP.val_main_v47,
    Cert.ReferenceIdeal.ReadP.val_main_cst_9,
    Cert.ReferenceIdeal.ReadP.val_main_v48,
    Cert.ReferenceIdeal.ReadP.val_main_cst_10,
    Cert.ReferenceIdeal.ReadP.val_main_v49,
    Cert.ReferenceIdeal.ReadP.val_main_v50,
    Cert.ReferenceIdeal.ReadP.val_main_v51,
    Cert.ReferenceIdeal.ReadP.val_main_cst_11,
    Cert.ReferenceIdeal.ReadP.val_main_cst_12,
    Cert.ReferenceIdeal.ReadP.val_main_cst_13,
    Cert.ReferenceIdeal.ReadP.val_main_cst_14,
    Cert.ReferenceIdeal.ReadP.val_main_cst_15,
    Cert.ReferenceIdeal.ReadP.val_main_v66,
    Cert.ReferenceIdeal.ReadP.val_main_cst_16,
    Cert.ReferenceIdeal.ReadP.val_main_v67,
    Cert.ReferenceIdeal.ReadP.val_main_cst_17,
    Cert.ReferenceIdeal.ReadP.val_main_v72,
    Cert.ReferenceIdeal.ReadP.val_main_cst_18,
    Cert.ReferenceIdeal.ReadP.val_main_cst_19,
    Cert.ReferenceIdeal.ReadP.val_main_v76,
    Cert.ReferenceIdeal.ReadP.val_main_cst_20,
    Cert.ReferenceIdeal.ReadP.val_main_v78,
    Cert.ReferenceIdeal.ReadP.val_main_v79,
    Cert.ReferenceIdeal.ReadP.val_main_v80,
    Cert.ReferenceIdeal.ReadP.val_main_cst_21,
    Cert.ReferenceIdeal.ReadP.val_main_v81,
    Cert.ReferenceIdeal.ReadP.val_main_v82,
    Cert.ReferenceIdeal.ReadP.val_main_v83,
    Cert.ReferenceIdeal.ReadP.val_main_v84,
    Cert.ReferenceIdeal.ReadP.val_main_v85,
    Cert.ReferenceIdeal.ReadP.val_main_cst_22,
    Cert.ReferenceIdeal.ReadP.val_main_v86,
    Cert.ReferenceIdeal.ReadP.val_main_cst_23,
    Cert.ReferenceIdeal.ReadP.val_main_v87,
    Cert.ReferenceIdeal.ReadP.val_main_v88,
    Cert.ReferenceIdeal.ReadP.val_main_v89,
    Cert.ReferenceIdeal.ReadP.val_main_v90,
    Cert.ReferenceIdeal.ReadP.val_main_v91,
    Cert.ReferenceIdeal.ReadP.val_main_cst_24,
    Cert.ReferenceIdeal.ReadP.val_main_v92,
    Cert.ReferenceIdeal.ReadP.val_main_cst_25,
    Cert.ReferenceIdeal.ReadP.val_main_v93,
    Cert.ReferenceIdeal.ReadP.val_main_v94,
    Cert.ReferenceIdeal.ReadP.val_main_v95,
    Cert.ReferenceIdeal.ReadP.val_main_cst_26,
    Cert.ReferenceIdeal.ReadP.val_main_v96,
    Cert.ReferenceIdeal.ReadP.val_main_cst_27,
    Cert.ReferenceIdeal.ReadP.val_main_v97,
    Cert.ReferenceIdeal.ReadP.val_main_v98,
    Cert.ReferenceIdeal.ReadP.val_main_cst_28,
    Cert.ReferenceIdeal.ReadP.val_main_v99,
    Cert.ReferenceIdeal.ReadP.val_main_v100,
    Cert.ReferenceIdeal.ReadP.val_main_v101,
    Cert.ReferenceIdeal.ReadP.val_main_v102,
    Cert.ReferenceIdeal.ReadP.val_main_v103,
    Cert.ReferenceIdeal.ReadP.val_main_v104,
    Cert.ReferenceIdeal.ReadP.val_main_v105,
    Cert.ReferenceIdeal.ReadP.val_main_v106,
    Cert.ReferenceIdeal.ReadP.val_main_v107,
    Cert.ReferenceIdeal.ReadP.val_main_v108,
    Cert.ReferenceIdeal.ReadP.val_main_v109,
    Cert.ReferenceIdeal.ReadP.val_main_cst_29,
    Cert.ReferenceIdeal.ReadP.val_main_v110,
    Cert.ReferenceIdeal.ReadP.val_main_cst_30,
    Cert.ReferenceIdeal.ReadP.val_main_v111,
    Cert.ReferenceIdeal.ReadP.val_main_v112,
    Cert.ReferenceIdeal.ReadP.val_main_cst_31,
    Cert.ReferenceIdeal.ReadP.val_main_v113,
    Cert.ReferenceIdeal.ReadP.val_main_cst_32,
    Cert.ReferenceIdeal.ReadP.val_main_v114,
    Cert.ReferenceIdeal.ReadP.val_main_v115,
    Cert.ReferenceIdeal.ReadP.val_main_v116,
    Cert.ReferenceIdeal.ReadP.val_main_v117,
    Cert.ReferenceIdeal.ReadP.val_main_v118]
  rfl

/-- The L2 term: a function of the two box arrays alone, the same on both sides. -/
theorem l2_match (hP : W (Proc.devRef .tc main_arg1) = x1) (hY : W (Proc.devRef .tc main_arg2) = x2) :
    StableHlo.after hostOps1 W (Proc.devRef .tc main_v58) = Cert.ReferenceIdeal.ReadP.val_main_v116 (F := F) x1 x2 := by
  after_results_simp
  rw [hP, hY]
  simp only [
    Cert.ReferenceIdeal.ReadP.val_main_cst,
    Cert.ReferenceIdeal.ReadP.val_main_cst_0,
    Cert.ReferenceIdeal.ReadP.val_main_cst_1,
    Cert.ReferenceIdeal.ReadP.val_main_cst_2,
    Cert.ReferenceIdeal.ReadP.val_main_cst_3,
    Cert.ReferenceIdeal.ReadP.val_main_cst_4,
    Cert.ReferenceIdeal.ReadP.val_main_cst_5,
    Cert.ReferenceIdeal.ReadP.val_main_cst_6,
    Cert.ReferenceIdeal.ReadP.val_main_cst_7,
    Cert.ReferenceIdeal.ReadP.val_main_cst_8,
    Cert.ReferenceIdeal.ReadP.val_main_v47,
    Cert.ReferenceIdeal.ReadP.val_main_cst_9,
    Cert.ReferenceIdeal.ReadP.val_main_v48,
    Cert.ReferenceIdeal.ReadP.val_main_cst_10,
    Cert.ReferenceIdeal.ReadP.val_main_v49,
    Cert.ReferenceIdeal.ReadP.val_main_v50,
    Cert.ReferenceIdeal.ReadP.val_main_v51,
    Cert.ReferenceIdeal.ReadP.val_main_cst_11,
    Cert.ReferenceIdeal.ReadP.val_main_cst_12,
    Cert.ReferenceIdeal.ReadP.val_main_cst_13,
    Cert.ReferenceIdeal.ReadP.val_main_cst_14,
    Cert.ReferenceIdeal.ReadP.val_main_cst_15,
    Cert.ReferenceIdeal.ReadP.val_main_v66,
    Cert.ReferenceIdeal.ReadP.val_main_cst_16,
    Cert.ReferenceIdeal.ReadP.val_main_v67,
    Cert.ReferenceIdeal.ReadP.val_main_cst_17,
    Cert.ReferenceIdeal.ReadP.val_main_v72,
    Cert.ReferenceIdeal.ReadP.val_main_cst_18,
    Cert.ReferenceIdeal.ReadP.val_main_cst_19,
    Cert.ReferenceIdeal.ReadP.val_main_v76,
    Cert.ReferenceIdeal.ReadP.val_main_cst_20,
    Cert.ReferenceIdeal.ReadP.val_main_v78,
    Cert.ReferenceIdeal.ReadP.val_main_v79,
    Cert.ReferenceIdeal.ReadP.val_main_v80,
    Cert.ReferenceIdeal.ReadP.val_main_cst_21,
    Cert.ReferenceIdeal.ReadP.val_main_v81,
    Cert.ReferenceIdeal.ReadP.val_main_v82,
    Cert.ReferenceIdeal.ReadP.val_main_v83,
    Cert.ReferenceIdeal.ReadP.val_main_v84,
    Cert.ReferenceIdeal.ReadP.val_main_v85,
    Cert.ReferenceIdeal.ReadP.val_main_cst_22,
    Cert.ReferenceIdeal.ReadP.val_main_v86,
    Cert.ReferenceIdeal.ReadP.val_main_cst_23,
    Cert.ReferenceIdeal.ReadP.val_main_v87,
    Cert.ReferenceIdeal.ReadP.val_main_v88,
    Cert.ReferenceIdeal.ReadP.val_main_v89,
    Cert.ReferenceIdeal.ReadP.val_main_v90,
    Cert.ReferenceIdeal.ReadP.val_main_v91,
    Cert.ReferenceIdeal.ReadP.val_main_cst_24,
    Cert.ReferenceIdeal.ReadP.val_main_v92,
    Cert.ReferenceIdeal.ReadP.val_main_cst_25,
    Cert.ReferenceIdeal.ReadP.val_main_v93,
    Cert.ReferenceIdeal.ReadP.val_main_v94,
    Cert.ReferenceIdeal.ReadP.val_main_v95,
    Cert.ReferenceIdeal.ReadP.val_main_cst_26,
    Cert.ReferenceIdeal.ReadP.val_main_v96,
    Cert.ReferenceIdeal.ReadP.val_main_cst_27,
    Cert.ReferenceIdeal.ReadP.val_main_v97,
    Cert.ReferenceIdeal.ReadP.val_main_v98,
    Cert.ReferenceIdeal.ReadP.val_main_cst_28,
    Cert.ReferenceIdeal.ReadP.val_main_v99,
    Cert.ReferenceIdeal.ReadP.val_main_v100,
    Cert.ReferenceIdeal.ReadP.val_main_v101,
    Cert.ReferenceIdeal.ReadP.val_main_v102,
    Cert.ReferenceIdeal.ReadP.val_main_v103,
    Cert.ReferenceIdeal.ReadP.val_main_v104,
    Cert.ReferenceIdeal.ReadP.val_main_v105,
    Cert.ReferenceIdeal.ReadP.val_main_v106,
    Cert.ReferenceIdeal.ReadP.val_main_v107,
    Cert.ReferenceIdeal.ReadP.val_main_v108,
    Cert.ReferenceIdeal.ReadP.val_main_v109,
    Cert.ReferenceIdeal.ReadP.val_main_cst_29,
    Cert.ReferenceIdeal.ReadP.val_main_v110,
    Cert.ReferenceIdeal.ReadP.val_main_cst_30,
    Cert.ReferenceIdeal.ReadP.val_main_v111,
    Cert.ReferenceIdeal.ReadP.val_main_v112,
    Cert.ReferenceIdeal.ReadP.val_main_cst_31,
    Cert.ReferenceIdeal.ReadP.val_main_v113,
    Cert.ReferenceIdeal.ReadP.val_main_cst_32,
    Cert.ReferenceIdeal.ReadP.val_main_v114,
    Cert.ReferenceIdeal.ReadP.val_main_v115,
    Cert.ReferenceIdeal.ReadP.val_main_v116,
    Cert.ReferenceIdeal.ReadP.val_main_v117,
    Cert.ReferenceIdeal.ReadP.val_main_v118]
  rfl

/-- The cross-entropy term. -/
theorem ce_match (hY : W (Proc.devRef .tc main_arg2) = x2)
    (hce : ceSum (W (Proc.devRef .tc main_v0)) x2 = Cert.ReferenceIdeal.ReadP.val_main_v71 x0 x1 x2) :
    StableHlo.after hostOps1 W (Proc.devRef .tc main_v18) = Cert.ReferenceIdeal.ReadP.val_main_v72 (F := F) x0 x1 x2 := by
  after_results_simp
  unfold ceSum col0 weight at hce
  rw [hY, hce]
  simp only [
    Cert.ReferenceIdeal.ReadP.val_main_cst,
    Cert.ReferenceIdeal.ReadP.val_main_cst_0,
    Cert.ReferenceIdeal.ReadP.val_main_cst_1,
    Cert.ReferenceIdeal.ReadP.val_main_cst_2,
    Cert.ReferenceIdeal.ReadP.val_main_cst_3,
    Cert.ReferenceIdeal.ReadP.val_main_cst_4,
    Cert.ReferenceIdeal.ReadP.val_main_cst_5,
    Cert.ReferenceIdeal.ReadP.val_main_cst_6,
    Cert.ReferenceIdeal.ReadP.val_main_cst_7,
    Cert.ReferenceIdeal.ReadP.val_main_cst_8,
    Cert.ReferenceIdeal.ReadP.val_main_v47,
    Cert.ReferenceIdeal.ReadP.val_main_cst_9,
    Cert.ReferenceIdeal.ReadP.val_main_v48,
    Cert.ReferenceIdeal.ReadP.val_main_cst_10,
    Cert.ReferenceIdeal.ReadP.val_main_v49,
    Cert.ReferenceIdeal.ReadP.val_main_v50,
    Cert.ReferenceIdeal.ReadP.val_main_v51,
    Cert.ReferenceIdeal.ReadP.val_main_cst_11,
    Cert.ReferenceIdeal.ReadP.val_main_cst_12,
    Cert.ReferenceIdeal.ReadP.val_main_cst_13,
    Cert.ReferenceIdeal.ReadP.val_main_cst_14,
    Cert.ReferenceIdeal.ReadP.val_main_cst_15,
    Cert.ReferenceIdeal.ReadP.val_main_v66,
    Cert.ReferenceIdeal.ReadP.val_main_cst_16,
    Cert.ReferenceIdeal.ReadP.val_main_v67,
    Cert.ReferenceIdeal.ReadP.val_main_cst_17,
    Cert.ReferenceIdeal.ReadP.val_main_v72,
    Cert.ReferenceIdeal.ReadP.val_main_cst_18,
    Cert.ReferenceIdeal.ReadP.val_main_cst_19,
    Cert.ReferenceIdeal.ReadP.val_main_v76,
    Cert.ReferenceIdeal.ReadP.val_main_cst_20,
    Cert.ReferenceIdeal.ReadP.val_main_v78,
    Cert.ReferenceIdeal.ReadP.val_main_v79,
    Cert.ReferenceIdeal.ReadP.val_main_v80,
    Cert.ReferenceIdeal.ReadP.val_main_cst_21,
    Cert.ReferenceIdeal.ReadP.val_main_v81,
    Cert.ReferenceIdeal.ReadP.val_main_v82,
    Cert.ReferenceIdeal.ReadP.val_main_v83,
    Cert.ReferenceIdeal.ReadP.val_main_v84,
    Cert.ReferenceIdeal.ReadP.val_main_v85,
    Cert.ReferenceIdeal.ReadP.val_main_cst_22,
    Cert.ReferenceIdeal.ReadP.val_main_v86,
    Cert.ReferenceIdeal.ReadP.val_main_cst_23,
    Cert.ReferenceIdeal.ReadP.val_main_v87,
    Cert.ReferenceIdeal.ReadP.val_main_v88,
    Cert.ReferenceIdeal.ReadP.val_main_v89,
    Cert.ReferenceIdeal.ReadP.val_main_v90,
    Cert.ReferenceIdeal.ReadP.val_main_v91,
    Cert.ReferenceIdeal.ReadP.val_main_cst_24,
    Cert.ReferenceIdeal.ReadP.val_main_v92,
    Cert.ReferenceIdeal.ReadP.val_main_cst_25,
    Cert.ReferenceIdeal.ReadP.val_main_v93,
    Cert.ReferenceIdeal.ReadP.val_main_v94,
    Cert.ReferenceIdeal.ReadP.val_main_v95,
    Cert.ReferenceIdeal.ReadP.val_main_cst_26,
    Cert.ReferenceIdeal.ReadP.val_main_v96,
    Cert.ReferenceIdeal.ReadP.val_main_cst_27,
    Cert.ReferenceIdeal.ReadP.val_main_v97,
    Cert.ReferenceIdeal.ReadP.val_main_v98,
    Cert.ReferenceIdeal.ReadP.val_main_cst_28,
    Cert.ReferenceIdeal.ReadP.val_main_v99,
    Cert.ReferenceIdeal.ReadP.val_main_v100,
    Cert.ReferenceIdeal.ReadP.val_main_v101,
    Cert.ReferenceIdeal.ReadP.val_main_v102,
    Cert.ReferenceIdeal.ReadP.val_main_v103,
    Cert.ReferenceIdeal.ReadP.val_main_v104,
    Cert.ReferenceIdeal.ReadP.val_main_v105,
    Cert.ReferenceIdeal.ReadP.val_main_v106,
    Cert.ReferenceIdeal.ReadP.val_main_v107,
    Cert.ReferenceIdeal.ReadP.val_main_v108,
    Cert.ReferenceIdeal.ReadP.val_main_v109,
    Cert.ReferenceIdeal.ReadP.val_main_cst_29,
    Cert.ReferenceIdeal.ReadP.val_main_v110,
    Cert.ReferenceIdeal.ReadP.val_main_cst_30,
    Cert.ReferenceIdeal.ReadP.val_main_v111,
    Cert.ReferenceIdeal.ReadP.val_main_v112,
    Cert.ReferenceIdeal.ReadP.val_main_cst_31,
    Cert.ReferenceIdeal.ReadP.val_main_v113,
    Cert.ReferenceIdeal.ReadP.val_main_cst_32,
    Cert.ReferenceIdeal.ReadP.val_main_v114,
    Cert.ReferenceIdeal.ReadP.val_main_v115,
    Cert.ReferenceIdeal.ReadP.val_main_v116,
    Cert.ReferenceIdeal.ReadP.val_main_v117,
    Cert.ReferenceIdeal.ReadP.val_main_v118]
  rfl

/-- The total: cross entropy + L2 + IoU. -/
theorem total_match (hP : W (Proc.devRef .tc main_arg1) = x1) (hY : W (Proc.devRef .tc main_arg2) = x2)
    (h1 : col1 (W (Proc.devRef .tc main_v0)) = Cert.ReferenceIdeal.ReadP.val_main_v74 x0 x1 x2)
    (h2 : col2 (W (Proc.devRef .tc main_v0)) = Cert.ReferenceIdeal.ReadP.val_main_v75 x0 x1)
    (h3 : col3 (W (Proc.devRef .tc main_v0)) = Cert.ReferenceIdeal.ReadP.val_main_v77 x0 x2)
    (hce : ceSum (W (Proc.devRef .tc main_v0)) x2 = Cert.ReferenceIdeal.ReadP.val_main_v71 x0 x1 x2) :
    StableHlo.after hostOps1 W (Proc.devRef .tc main_v60) = Cert.ReferenceIdeal.ReadP.val_main_v118 (F := F) x0 x1 x2 := by
  after_results_simp
  unfold col1 at h1; unfold col2 at h2; unfold col3 at h3
  unfold ceSum col0 weight at hce
  rw [hP, hY, hce, h1, h2, h3]
  simp only [
    Cert.ReferenceIdeal.ReadP.val_main_cst,
    Cert.ReferenceIdeal.ReadP.val_main_cst_0,
    Cert.ReferenceIdeal.ReadP.val_main_cst_1,
    Cert.ReferenceIdeal.ReadP.val_main_cst_2,
    Cert.ReferenceIdeal.ReadP.val_main_cst_3,
    Cert.ReferenceIdeal.ReadP.val_main_cst_4,
    Cert.ReferenceIdeal.ReadP.val_main_cst_5,
    Cert.ReferenceIdeal.ReadP.val_main_cst_6,
    Cert.ReferenceIdeal.ReadP.val_main_cst_7,
    Cert.ReferenceIdeal.ReadP.val_main_cst_8,
    Cert.ReferenceIdeal.ReadP.val_main_v47,
    Cert.ReferenceIdeal.ReadP.val_main_cst_9,
    Cert.ReferenceIdeal.ReadP.val_main_v48,
    Cert.ReferenceIdeal.ReadP.val_main_cst_10,
    Cert.ReferenceIdeal.ReadP.val_main_v49,
    Cert.ReferenceIdeal.ReadP.val_main_v50,
    Cert.ReferenceIdeal.ReadP.val_main_v51,
    Cert.ReferenceIdeal.ReadP.val_main_cst_11,
    Cert.ReferenceIdeal.ReadP.val_main_cst_12,
    Cert.ReferenceIdeal.ReadP.val_main_cst_13,
    Cert.ReferenceIdeal.ReadP.val_main_cst_14,
    Cert.ReferenceIdeal.ReadP.val_main_cst_15,
    Cert.ReferenceIdeal.ReadP.val_main_v66,
    Cert.ReferenceIdeal.ReadP.val_main_cst_16,
    Cert.ReferenceIdeal.ReadP.val_main_v67,
    Cert.ReferenceIdeal.ReadP.val_main_cst_17,
    Cert.ReferenceIdeal.ReadP.val_main_v72,
    Cert.ReferenceIdeal.ReadP.val_main_cst_18,
    Cert.ReferenceIdeal.ReadP.val_main_cst_19,
    Cert.ReferenceIdeal.ReadP.val_main_v76,
    Cert.ReferenceIdeal.ReadP.val_main_cst_20,
    Cert.ReferenceIdeal.ReadP.val_main_v78,
    Cert.ReferenceIdeal.ReadP.val_main_v79,
    Cert.ReferenceIdeal.ReadP.val_main_v80,
    Cert.ReferenceIdeal.ReadP.val_main_cst_21,
    Cert.ReferenceIdeal.ReadP.val_main_v81,
    Cert.ReferenceIdeal.ReadP.val_main_v82,
    Cert.ReferenceIdeal.ReadP.val_main_v83,
    Cert.ReferenceIdeal.ReadP.val_main_v84,
    Cert.ReferenceIdeal.ReadP.val_main_v85,
    Cert.ReferenceIdeal.ReadP.val_main_cst_22,
    Cert.ReferenceIdeal.ReadP.val_main_v86,
    Cert.ReferenceIdeal.ReadP.val_main_cst_23,
    Cert.ReferenceIdeal.ReadP.val_main_v87,
    Cert.ReferenceIdeal.ReadP.val_main_v88,
    Cert.ReferenceIdeal.ReadP.val_main_v89,
    Cert.ReferenceIdeal.ReadP.val_main_v90,
    Cert.ReferenceIdeal.ReadP.val_main_v91,
    Cert.ReferenceIdeal.ReadP.val_main_cst_24,
    Cert.ReferenceIdeal.ReadP.val_main_v92,
    Cert.ReferenceIdeal.ReadP.val_main_cst_25,
    Cert.ReferenceIdeal.ReadP.val_main_v93,
    Cert.ReferenceIdeal.ReadP.val_main_v94,
    Cert.ReferenceIdeal.ReadP.val_main_v95,
    Cert.ReferenceIdeal.ReadP.val_main_cst_26,
    Cert.ReferenceIdeal.ReadP.val_main_v96,
    Cert.ReferenceIdeal.ReadP.val_main_cst_27,
    Cert.ReferenceIdeal.ReadP.val_main_v97,
    Cert.ReferenceIdeal.ReadP.val_main_v98,
    Cert.ReferenceIdeal.ReadP.val_main_cst_28,
    Cert.ReferenceIdeal.ReadP.val_main_v99,
    Cert.ReferenceIdeal.ReadP.val_main_v100,
    Cert.ReferenceIdeal.ReadP.val_main_v101,
    Cert.ReferenceIdeal.ReadP.val_main_v102,
    Cert.ReferenceIdeal.ReadP.val_main_v103,
    Cert.ReferenceIdeal.ReadP.val_main_v104,
    Cert.ReferenceIdeal.ReadP.val_main_v105,
    Cert.ReferenceIdeal.ReadP.val_main_v106,
    Cert.ReferenceIdeal.ReadP.val_main_v107,
    Cert.ReferenceIdeal.ReadP.val_main_v108,
    Cert.ReferenceIdeal.ReadP.val_main_v109,
    Cert.ReferenceIdeal.ReadP.val_main_cst_29,
    Cert.ReferenceIdeal.ReadP.val_main_v110,
    Cert.ReferenceIdeal.ReadP.val_main_cst_30,
    Cert.ReferenceIdeal.ReadP.val_main_v111,
    Cert.ReferenceIdeal.ReadP.val_main_v112,
    Cert.ReferenceIdeal.ReadP.val_main_cst_31,
    Cert.ReferenceIdeal.ReadP.val_main_v113,
    Cert.ReferenceIdeal.ReadP.val_main_cst_32,
    Cert.ReferenceIdeal.ReadP.val_main_v114,
    Cert.ReferenceIdeal.ReadP.val_main_v115,
    Cert.ReferenceIdeal.ReadP.val_main_v116,
    Cert.ReferenceIdeal.ReadP.val_main_v117,
    Cert.ReferenceIdeal.ReadP.val_main_v118]
  rfl

end Matches

end Cert.Tail

end
-- ==== Proof.RefPoint.lean ====
/-
  The reference program read at one point against one box.

  For batch b, box h and point n the reference computes three numbers: the hard indicator that the point lies inside
  the ground-truth box, its soft membership in the predicted box, and the cross entropy of the two. Each is reached
  through a chain of slices, reshapes and broadcasts that only move indices, followed by elementwise arithmetic and one
  reduction over the three axes. This module follows the index maps down to the arguments — the corner (b, h, c, k) of a
  box and channel k of point (b, n) — and identifies what is computed there with the specification's `gAt`, `pAt` and
  `ce`:

  * the indicator is the 0/1 number of "the mean of the three axis tests equals 1", the sum taken from 0;
  * the soft membership is the fold of the minimum from +∞ over the three smooth tests, each a sigmoid spelled
    1/(1 + e^(−z)) of a product clipped by a maximum with −20 and a minimum with 20;
  * the cross entropy negates the label where the specification subtracts it from zero.

  Last, the per-box weight (whether the six corner coordinates sum to something positive) is a 0/1 number.
-/
import proofs.«176227_j76828374991464_1_alg».proof.Proof.RefRead
import proofs.«176227_j76828374991464_1_alg».proof.Proof.Spec
import Idealize.ShloMosaic.Lib.ValueIdx
import Idealize.ShloMosaic.PureOps.Reduce
import Mathlib.Algebra.BigOperators.Fin

noncomputable section

namespace Cert.ReferenceIdeal.Pt

open Cert.ReferenceIdeal Cert.ReferenceIdeal.ReadP Idealize.ShloMosaic Idealize.ShloMosaic.ValueIdx
open scoped BigOperators

/-! ## Index arithmetic

A box corner is read through a reshape that flattens (batch, box, 1, axis) to (batch, box, axis): position
(b·24 + h)·3 + k splits back into b, h and k. -/

/-- The lower corner of box `h` of batch `b` on axis `k`, traced back through broadcast, reshape and slice. -/
theorem idx_lo (b : Fin 16) (h : Fin 24) (n : Fin 40960) (k : Fin 3) :
    idx_main_v2 (idx_main_v3 (idx_main_v4 (idx_main_v8 (ix4 b h n k)))) = ix4 b h 0 k := by
  funext a
  apply Fin.ext
  have hb := b.isLt; have hh := h.isLt; have hk := k.isLt
  match a with
  | ⟨0, _⟩ => show ((b.val * 24 + h.val) * 3 + k.val) / 72 = b.val; omega
  | ⟨1, _⟩ => show ((b.val * 24 + h.val) * 3 + k.val) / 3 % 24 = h.val; omega
  | ⟨2, _⟩ => rfl
  | ⟨3, _⟩ => show ((b.val * 24 + h.val) * 3 + k.val) % 3 = k.val; omega

/-- The upper corner likewise (corner index 1 + 0). -/
theorem idx_hi (b : Fin 16) (h : Fin 24) (n : Fin 40960) (k : Fin 3) :
    idx_main_v5 (idx_main_v6 (idx_main_v7 (idx_main_v12 (ix4 b h n k)))) = ix4 b h 1 k := by
  funext a
  apply Fin.ext
  have hb := b.isLt; have hh := h.isLt; have hk := k.isLt
  match a with
  | ⟨0, _⟩ => show ((b.val * 24 + h.val) * 3 + k.val) / 72 = b.val; omega
  | ⟨1, _⟩ => show ((b.val * 24 + h.val) * 3 + k.val) / 3 % 24 = h.val; omega
  | ⟨2, _⟩ => rfl
  | ⟨3, _⟩ => show ((b.val * 24 + h.val) * 3 + k.val) % 3 = k.val; omega

/-- Channel `k` of the nine, for `k` one of the three coordinates. -/
abbrev ch (k : Fin 3) : Fin 9 := ⟨k.val, by have := k.isLt; omega⟩

/-- Coordinate `k` of point `n` of batch `b`, traced back through the two broadcasts and the slice. -/
theorem idx_pt (b : Fin 16) (h : Fin 24) (n : Fin 40960) (k : Fin 3) :
    idx_main_v0 (idx_main_v1 (idx_main_v9 (ix4 b h n k))) = ix3 b n (ch k) := by
  funext a
  apply Fin.ext
  match a with
  | ⟨0, _⟩ => rfl
  | ⟨1, _⟩ => rfl
  | ⟨2, _⟩ => rfl

/-- The summed (or folded) axis put back: position `k` of the last axis over (b, h, n). -/
theorem idx_sum (b : Fin 16) (h : Fin 24) (n : Fin 40960) (k : Fin 3) :
    idx_main_v18 (ix3 b h n) k = ix4 b h n k := by
  funext a
  apply Fin.ext
  match a with
  | ⟨0, _⟩ => rfl
  | ⟨1, _⟩ => rfl
  | ⟨2, _⟩ => rfl
  | ⟨3, _⟩ => rfl

/-! ## The operands of one axis test, read at (b, h, n, k) -/

section Read

variable (X : (⟨S16x40960x9, .f32⟩ : BufTy).Contents (Elt Ideal)) (P Y : (⟨S16x24x2x3, .f32⟩ : BufTy).Contents (Elt Ideal))
variable (b : Fin 16) (h : Fin 24) (n : Fin 40960) (k : Fin 3)

/-- The broadcast point coordinates: every one of the four broadcasts of the sliced points reads the same element. -/
theorem pt_at : val_main_v1 (F := Ideal) X (idx_main_v9 (ix4 b h n k)) = X (ix3 b n (ch k)) := by
  rw [val_main_v1_apply, val_main_v0_apply]
  exact congrArg X (idx_pt b h n k)

/-- The ground-truth lower corner. -/
theorem gtLo_at : val_main_v8 (F := Ideal) Y (ix4 b h n k) = Y (ix4 b h 0 k) := by
  rw [val_main_v8_apply, val_main_v4_apply, val_main_v3_apply, val_main_v2_apply]
  exact congrArg Y (idx_lo b h n k)

/-- The ground-truth upper corner. -/
theorem gtHi_at : val_main_v12 (F := Ideal) Y (ix4 b h n k) = Y (ix4 b h 1 k) := by
  rw [val_main_v12_apply, val_main_v7_apply, val_main_v6_apply, val_main_v5_apply]
  exact congrArg Y (idx_hi b h n k)

/-- The predicted lower corner (the same chain of layout operations over the other argument). -/
theorem prLo_at : val_main_v30 (F := Ideal) P (ix4 b h n k) = P (ix4 b h 0 k) := by
  rw [val_main_v30_apply, val_main_v26_apply, val_main_v25_apply, val_main_v24_apply]
  exact congrArg P (idx_lo b h n k)

/-- The predicted upper corner. -/
theorem prHi_at : val_main_v36 (F := Ideal) P (ix4 b h n k) = P (ix4 b h 1 k) := by
  rw [val_main_v36_apply, val_main_v29_apply, val_main_v28_apply, val_main_v27_apply]
  exact congrArg P (idx_hi b h n k)

/-- The hard test on axis `k`: the 0/1 number of (lo − x)·(x − hi) > 0. -/
theorem hit_at : val_main_v17 (F := Ideal) X Y (ix4 b h n k)
    = Cert.Spec.hit (Y (ix4 b h 0 k)) (X (ix3 b n (ch k))) (Y (ix4 b h 1 k)) := by
  rw [val_main_v17_apply, val_main_v16_apply, val_main_v14_apply, val_main_v10_apply, val_main_v13_apply,
    val_main_v15_apply, val_main_cst_apply, gtLo_at, gtHi_at, val_main_v9_apply, val_main_v11_apply]
  have e := pt_at X b h n k
  rw [pt_at X b h n k]
  rfl

/-- The smooth test on axis `k`: the clip is a maximum with −20 then a minimum with 20, the sigmoid is 1/(1 + e^(−z)). -/
theorem soft_at : val_main_v45 (F := Ideal) X P (ix4 b h n k)
    = Cert.Spec.soft (P (ix4 b h 0 k)) (X (ix3 b n (ch k))) (P (ix4 b h 1 k)) := by
  rw [val_main_v45_apply, val_main_v44_apply, val_main_cst_7_apply, val_main_v43_apply, val_main_v42_apply,
    val_main_cst_6_apply, val_main_v41_apply, val_main_v40_apply, val_main_v39_apply, val_main_call0_v4_apply,
    val_main_call0_v3_apply, val_main_cst_5_apply, val_main_call0_v2_apply, val_main_call0_v1_apply,
    val_main_call0_v0_apply, val_main_cst_4_apply, val_main_v38_apply, val_main_v34_apply, val_main_v33_apply,
    val_main_cst_3_apply, val_main_v32_apply, val_main_v37_apply, prLo_at, prHi_at, val_main_v31_apply, val_main_v35_apply,
    pt_at X b h n k]
  exact (Cert.Spec.logistic_eq _).symm

end Read

/-! ## A fold over three values -/

/-- A fold over `Fin 3` of a commutative, associative operation, from the left. -/
theorem fold_univ_fin3 {α : Type*} (f : α → α → α) [Std.Commutative f] [Std.Associative f] (c : α) (g : Fin 3 → α) :
    (Finset.univ : Finset (Fin 3)).fold f c g = f (f (f c (g 0)) (g 1)) (g 2) := by
  simp only [Fin.univ_succ, Finset.fold_cons, Finset.fold_map, Finset.univ_unique, Finset.fold_singleton]
  show f (g 0) (f (g 1) (f (g 2) c)) = _
  ac_rfl

/-- The reduced index (b, h, n) with position `k` of the last axis put back is (b, h, n, k). -/
theorem lift_last (hr : S16x24x40960x3.Reduces [3] S16x24x40960) (b : Fin 16) (h : Fin 24) (n : Fin 40960)
    (k : Fin (S16x24x40960x3.size 3)) : hr.lift (ix3 b h n) k = ix4 b h n (⟨k.val, k.isLt⟩ : Fin 3) := by
  funext c
  apply Fin.ext
  match c with
  | ⟨0, _⟩ => rfl
  | ⟨1, _⟩ => rfl
  | ⟨2, _⟩ => rfl
  | ⟨3, _⟩ => rfl

/-! ## The three results at (b, h, n) -/

/-- The hard indicator: the reference tests the mean of the three axis tests against 1. -/
theorem gin_at (X : (⟨S16x40960x9, .f32⟩ : BufTy).Contents (Elt Ideal)) (Y : (⟨S16x24x2x3, .f32⟩ : BufTy).Contents (Elt Ideal))
    (b : Fin 16) (h : Fin 24) (n : Fin 40960) :
    val_main_v23 (F := Ideal) X Y (ix3 b h n) = Cert.Spec.gAt X Y b h n := by
  rw [val_main_v23_apply, val_main_v22_apply, val_main_v20_apply, val_main_v18_apply, val_main_cst_0_apply,
    val_main_v19_apply, val_main_cst_1_apply, val_main_v21_apply, val_main_cst_2_apply, Fin.sum_univ_three,
    idx_sum, idx_sum, idx_sum, hit_at, hit_at, hit_at]
  exact Cert.Spec.gin_of_mean _ _ _

/-- The soft membership: the least of the three smooth tests, folded from +∞ over the last axis. -/
theorem pin_at (X : (⟨S16x40960x9, .f32⟩ : BufTy).Contents (Elt Ideal)) (P : (⟨S16x24x2x3, .f32⟩ : BufTy).Contents (Elt Ideal))
    (b : Fin 16) (h : Fin 24) (n : Fin 40960) :
    val_main_v46 (F := Ideal) X P (ix3 b h n) = Cert.Spec.pAt X P b h n := by
  have hr : S16x24x40960x3.Reduces [3] S16x24x40960 := by decide
  unfold val_main_v46
  rw [Host.reduce_eq_fold_single FloatOps.minimumf _ _ _ hr]
  have hf : (val_main_v45 (F := Ideal) X P ∘ hr.lift (ix3 b h n))
      = fun k : Fin 3 => Cert.Spec.soft (P (ix4 b h 0 k)) (X (ix3 b n (ch k))) (P (ix4 b h 1 k)) :=
    funext fun k => (congrArg (val_main_v45 (F := Ideal) X P) (lift_last hr b h n k)).trans (soft_at X P b h n _)
  refine (congrArg (fun f => Finset.fold FloatOps.minimumf _ f (Finset.univ : Finset (Fin 3))) hf).trans ?_
  rw [fold_univ_fin3, val_main_cst_8_apply]
  exact Cert.Spec.pin_fold _ _ _

/-- The cross entropy: the reference negates the label where the specification subtracts it from zero. -/
theorem ce_at (X : (⟨S16x40960x9, .f32⟩ : BufTy).Contents (Elt Ideal)) (P Y : (⟨S16x24x2x3, .f32⟩ : BufTy).Contents (Elt Ideal))
    (b : Fin 16) (h : Fin 24) (n : Fin 40960) :
    val_main_v65 (F := Ideal) X P Y (ix3 b h n) = Cert.Spec.ce (Cert.Spec.gAt X Y b h n) (Cert.Spec.pAt X P b h n) := by
  rw [val_main_v65_apply, val_main_v56_apply, val_main_v64_apply, val_main_v52_apply, val_main_v55_apply,
    val_main_v54_apply, val_main_v53_apply, val_main_cst_11_apply, val_main_v58_apply, val_main_v57_apply,
    val_main_cst_12_apply, val_main_v63_apply, val_main_v62_apply, val_main_v60_apply, val_main_v59_apply,
    val_main_cst_13_apply, val_main_v61_apply, val_main_cst_14_apply, gin_at, pin_at]
  show -(Cert.Spec.gAt X Y b h n) * _ - _ = _
  rw [Cert.Spec.neg_eq_zero_sub]
  rfl

/-- The per-box weight is a 0/1 number: it is the number of a one-bit comparison. -/
theorem helper_bit (Y : (⟨S16x24x2x3, .f32⟩ : BufTy).Contents (Elt Ideal)) (i : S16x24.Idx) :
    val_main_v51 (F := Ideal) Y i = 0 ∨ val_main_v51 (F := Ideal) Y i = 1 :=
  Cert.Spec.bit_zero_or_one _

end Cert.ReferenceIdeal.Pt

end
-- ==== Proof.RefSums.lean ====
/-
  The reference's four reduced quantities, in closed form over the specification's per-point terms.

  For every box (b, h) the reference sums three things over the 40960 points: the soft membership times the hard
  indicator, the soft membership alone, and the hard indicator alone. Each sum starts from the constant 0 and runs over
  the last axis, so it is the plain sum of the per-point term. The fourth quantity is one sum over every (b, h, n) of the
  cross entropy times the per-box weight broadcast along the points; a sum over the rank-3 index set is the triple sum
  over its coordinates, and the weight, being 0 or 1, moves out of the innermost sum whatever the terms are
  (0·(±∞) = 0 in the extended reals).
-/
import proofs.«176227_j76828374991464_1_alg».proof.Proof.RefPoint
import proofs.«176227_j76828374991464_1_alg».proof.Proof.Spec
import Idealize.ShloMosaic.Lib.ValueIdx
import Idealize.ShloMosaic.PureOps.Ideal.Laws
import Mathlib.Data.Fintype.BigOperators

noncomputable section

namespace Cert.ReferenceIdeal.Sums

open Cert.ReferenceIdeal Cert.ReferenceIdeal.ReadP Cert.ReferenceIdeal.Pt Idealize.ShloMosaic Idealize.ShloMosaic.ValueIdx
open scoped BigOperators

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Index arithmetic -/

/-- Point `n` put back on the summed axis over (b, h): the three sums over the points share this index map. -/
theorem idx_red74 (b : Fin 16) (h : Fin 24) (n : Fin 40960) : idx_main_v74 (ix2 b h) n = ix3 b h n := by
  funext a
  apply Fin.ext
  match a with
  | ⟨0, _⟩ => rfl
  | ⟨1, _⟩ => rfl
  | ⟨2, _⟩ => rfl

theorem idx_red75 (b : Fin 16) (h : Fin 24) (n : Fin 40960) : idx_main_v75 (ix2 b h) n = ix3 b h n :=
  idx_red74 b h n

theorem idx_red77 (b : Fin 16) (h : Fin 24) (n : Fin 40960) : idx_main_v77 (ix2 b h) n = ix3 b h n :=
  idx_red74 b h n

/-- The per-box weight broadcast along the points reads box (b, h) at every point. -/
theorem idx_weight (b : Fin 16) (h : Fin 24) (n : Fin 40960) : idx_main_v68 (idx_main_v69 (ix3 b h n)) = ix2 b h := by
  funext a
  apply Fin.ext
  match a with
  | ⟨0, _⟩ => rfl
  | ⟨1, _⟩ => rfl

/-! ## The sums over the points -/

/-- The zero the sums start from. -/
theorem init_zero : (FloatOps.ofBits (F := Ideal) .f32 0x00000000#32 : EReal) = 0 := Ideal.ofBits_zero_f32

/-- The soft true positives of box (b, h): the sum over the points of membership times indicator. -/
theorem tp_at (X : (⟨S16x40960x9, .f32⟩ : BufTy).Contents (Elt Ideal)) (P Y : (⟨S16x24x2x3, .f32⟩ : BufTy).Contents (Elt Ideal))
    (b : Fin 16) (h : Fin 24) :
    val_main_v74 (F := Ideal) X P Y (ix2 b h) = ∑ n : Fin 40960, Cert.Spec.term X P Y 1 b h n := by
  rw [val_main_v74_apply, val_main_cst_18_apply, init_zero, zero_add]
  refine Finset.sum_congr rfl fun n _ => ?_
  rw [idx_red74, val_main_v73_apply, pin_at, gin_at]
  rfl

/-- The soft count of box (b, h): the sum over the points of the soft membership. -/
theorem sp_at (X : (⟨S16x40960x9, .f32⟩ : BufTy).Contents (Elt Ideal)) (P Y : (⟨S16x24x2x3, .f32⟩ : BufTy).Contents (Elt Ideal))
    (b : Fin 16) (h : Fin 24) :
    val_main_v75 (F := Ideal) X P (ix2 b h) = ∑ n : Fin 40960, Cert.Spec.term X P Y 2 b h n := by
  rw [val_main_v75_apply, val_main_cst_19_apply, init_zero, zero_add]
  refine Finset.sum_congr rfl fun n _ => ?_
  rw [idx_red75, pin_at]
  rfl

/-- The hard count of box (b, h): the sum over the points of the indicator. -/
theorem sg_at (X : (⟨S16x40960x9, .f32⟩ : BufTy).Contents (Elt Ideal)) (P Y : (⟨S16x24x2x3, .f32⟩ : BufTy).Contents (Elt Ideal))
    (b : Fin 16) (h : Fin 24) :
    val_main_v77 (F := Ideal) X Y (ix2 b h) = ∑ n : Fin 40960, Cert.Spec.term X P Y 3 b h n := by
  rw [val_main_v77_apply, val_main_cst_20_apply, init_zero, zero_add]
  refine Finset.sum_congr rfl fun n _ => ?_
  rw [idx_red77, gin_at]
  rfl

/-! ## The weighted cross entropy, summed over everything -/

/-- The per-box weight at (b, h, n) is the weight of box (b, h). -/
theorem weight_at (Y : (⟨S16x24x2x3, .f32⟩ : BufTy).Contents (Elt Ideal)) (b : Fin 16) (h : Fin 24) (n : Fin 40960) :
    val_main_v69 (F := Ideal) Y (ix3 b h n) = val_main_v51 (F := Ideal) Y (ix2 b h) := by
  rw [val_main_v69_apply, val_main_v68_apply]
  exact congrArg (val_main_v51 (F := Ideal) Y) (idx_weight b h n)

/-- The total: the sum over every (b, h, n) of cross entropy times weight; the weight, a 0/1 number, moves out of the sum
    over the points whatever the terms are. -/
theorem ce_total (X : (⟨S16x40960x9, .f32⟩ : BufTy).Contents (Elt Ideal)) (P Y : (⟨S16x24x2x3, .f32⟩ : BufTy).Contents (Elt Ideal)) :
    val_main_v71 (F := Ideal) X P Y ix0
      = ∑ b : Fin 16, ∑ h : Fin 24, (∑ n : Fin 40960, Cert.Spec.term X P Y 0 b h n) * val_main_v51 (F := Ideal) Y (ix2 b h) := by
  rw [val_main_v71_apply, val_main_cst_17_apply, init_zero, zero_add, sum_idx3]
  refine Finset.sum_congr rfl fun b _ => Finset.sum_congr rfl fun h _ => ?_
  rw [Cert.Spec.sum_mul_bit _ _ _ (helper_bit Y (ix2 b h))]
  refine Finset.sum_congr rfl fun n _ => ?_
  rw [val_main_v70_apply, ce_at, weight_at]
  rfl

end Cert.ReferenceIdeal.Sums

end
-- ==== Proof.Bridge.lean ====
/-
  The kernel program's result array against the reference's reduced quantities.

  The kernel program's region leaves a [16, 24, 4] array: per batch `b` and box `h` four numbers, each the sum over
  the five tiles of the sum over a tile's 8192 points of one per-point term (column 0 the cross entropy, column 1 the soft
  true positives, column 2 the soft count, column 3 the hard count). A sum over five tiles of 8192 points is the sum
  over the 40960 points, so columns 1, 2 and 3, cut out of the array by a slice along the last axis with the unit axis
  dropped, are the three [16, 24] arrays the reference gets by summing over the points. Column 0 is only ever used
  weighted: multiplied by the per-box 0/1 weight and summed over batches and boxes, which is the reference's one sum over
  batches, boxes and points of the weighted cross entropy, the weight taken out of the sum over the points.
-/
import proofs.«176227_j76828374991464_1_alg».proof.Proof.TailChain
import proofs.«176227_j76828374991464_1_alg».proof.Proof.RefSums
import proofs.«176227_j76828374991464_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.Bridge

open Cert.KernelIdeal Cert.KernelIdeal.Gen Idealize.ShloMosaic Idealize.ShloMosaic.ValueIdx
open scoped BigOperators

/-! ## A column of the result array read at an index -/

/-- A [16, 24, 4] array cut along its last axis at column `k`, the unit axis dropped, reads at `(b, h)` the array at
    `(b, h, k)`. -/
theorem cut_apply {α : Type} (o : S16x24x4.Idx → α) (off : Fin 3 → ℕ) (hs : S16x24x4.Slices off S16x24x1)
    (hc : S16x24x1.ShapeCasts S16x24) (k : Fin 4) (h0 : off 0 = 0) (h1 : off 1 = 0) (h2 : off 2 = k.val)
    (b : Fin 16) (h : Fin 24) :
    shapeCast S16x24 (extractStridedSlice S16x24x1 off o hs) hc (ix2 b h) = o (ix3 b h k) := by
  refine (shapeCast_apply _ hc (ix2 b h) (ix3 b h (0 : Fin 1)) ?_).trans ?_
  · rw [Shape.rowMajor_val_three, Shape.rowMajor_val_two]
    show (b.val * 24 + h.val) * 1 + 0 = b.val * 24 + h.val
    omega
  · exact extractStridedSlice_apply off o hs (ix3 b h (0 : Fin 1)) (ix3 b h k) fun ax => by
      match ax with
      | ⟨0, _⟩ => show b.val = off 0 + b.val; omega
      | ⟨1, _⟩ => show h.val = off 1 + h.val; omega
      | ⟨2, _⟩ => show k.val = off 2 + 0; omega

variable (X : (⟨S16x40960x9, .f32⟩ : BufTy).Contents (Elt Ideal)) (P Y : (⟨S16x24x2x3, .f32⟩ : BufTy).Contents (Elt Ideal))
  (o : (⟨S16x24x4, .f32⟩ : BufTy).Contents (Elt Ideal))

/-- Column 0 at `(b, h)`. -/
theorem col0_at (b : Fin 16) (h : Fin 24) : Cert.Tail.col0 (F := Ideal) o (ix2 b h) = o (ix3 b h 0) :=
  cut_apply o ![0, 0, 0] slices_S16x24x4_S16x24x1_0_0_0 shapeCasts_S16x24x1_S16x24 0 rfl rfl rfl b h

/-- Column 1 at `(b, h)`. -/
theorem col1_at (b : Fin 16) (h : Fin 24) : Cert.Tail.col1 (F := Ideal) o (ix2 b h) = o (ix3 b h 1) :=
  cut_apply o ![0, 0, 1] slices_S16x24x4_S16x24x1_0_0_1 shapeCasts_S16x24x1_S16x24 1 rfl rfl rfl b h

/-- Column 2 at `(b, h)`. -/
theorem col2_at (b : Fin 16) (h : Fin 24) : Cert.Tail.col2 (F := Ideal) o (ix2 b h) = o (ix3 b h 2) :=
  cut_apply o ![0, 0, 2] slices_S16x24x4_S16x24x1_0_0_2 shapeCasts_S16x24x1_S16x24 2 rfl rfl rfl b h

/-- Column 3 at `(b, h)`. -/
theorem col3_at (b : Fin 16) (h : Fin 24) : Cert.Tail.col3 (F := Ideal) o (ix2 b h) = o (ix3 b h 3) :=
  cut_apply o ![0, 0, 3] slices_S16x24x4_S16x24x1_0_0_3 shapeCasts_S16x24x1_S16x24 3 rfl rfl rfl b h

/-! ## The three columns that are sums over the points, and the weighted cross-entropy sum -/

/-- An entry of the result array, as the sum over all 40960 points. -/
theorem entry_eq
    (ho : ∀ (b : Fin 16) (h : Fin 24) (k : Fin 4),
      o (ix3 b h k) = ∑ j : Fin 5, ∑ l : Fin 8192, Cert.Spec.term X P Y k b h (Cert.Spec.tilePt j l))
    (b : Fin 16) (h : Fin 24) (k : Fin 4) : o (ix3 b h k) = ∑ n : Fin 40960, Cert.Spec.term X P Y k b h n :=
  (ho b h k).trans (Cert.Spec.sum_tiles (fun n => Cert.Spec.term X P Y k b h n)).symm

/-- Column 1 is the reference's soft true positives. -/
theorem col1_eq
    (ho : ∀ (b : Fin 16) (h : Fin 24) (k : Fin 4),
      o (ix3 b h k) = ∑ j : Fin 5, ∑ l : Fin 8192, Cert.Spec.term X P Y k b h (Cert.Spec.tilePt j l)) :
    Cert.Tail.col1 o = Cert.ReferenceIdeal.ReadP.val_main_v74 (F := Ideal) X P Y := by
  funext i
  obtain ⟨b, h, rfl⟩ : ∃ (b : Fin 16) (h : Fin 24), i = ix2 b h := ⟨i 0, i 1, eq_ix2 i⟩
  exact (col1_at o b h).trans ((entry_eq X P Y o ho b h 1).trans (Cert.ReferenceIdeal.Sums.tp_at X P Y b h).symm)

/-- Column 2 is the reference's soft count. -/
theorem col2_eq
    (ho : ∀ (b : Fin 16) (h : Fin 24) (k : Fin 4),
      o (ix3 b h k) = ∑ j : Fin 5, ∑ l : Fin 8192, Cert.Spec.term X P Y k b h (Cert.Spec.tilePt j l)) :
    Cert.Tail.col2 o = Cert.ReferenceIdeal.ReadP.val_main_v75 (F := Ideal) X P := by
  funext i
  obtain ⟨b, h, rfl⟩ : ∃ (b : Fin 16) (h : Fin 24), i = ix2 b h := ⟨i 0, i 1, eq_ix2 i⟩
  exact (col2_at o b h).trans ((entry_eq X P Y o ho b h 2).trans (Cert.ReferenceIdeal.Sums.sp_at X P Y b h).symm)

/-- Column 3 is the reference's hard count. -/
theorem col3_eq
    (ho : ∀ (b : Fin 16) (h : Fin 24) (k : Fin 4),
      o (ix3 b h k) = ∑ j : Fin 5, ∑ l : Fin 8192, Cert.Spec.term X P Y k b h (Cert.Spec.tilePt j l)) :
    Cert.Tail.col3 o = Cert.ReferenceIdeal.ReadP.val_main_v77 (F := Ideal) X Y := by
  funext i
  obtain ⟨b, h, rfl⟩ : ∃ (b : Fin 16) (h : Fin 24), i = ix2 b h := ⟨i 0, i 1, eq_ix2 i⟩
  exact (col3_at o b h).trans ((entry_eq X P Y o ho b h 3).trans (Cert.ReferenceIdeal.Sums.sg_at X P Y b h).symm)

/-- The weighted sum of column 0 over batches and boxes is the reference's weighted cross-entropy total. -/
theorem ceSum_eq
    (ho : ∀ (b : Fin 16) (h : Fin 24) (k : Fin 4),
      o (ix3 b h k) = ∑ j : Fin 5, ∑ l : Fin 8192, Cert.Spec.term X P Y k b h (Cert.Spec.tilePt j l)) :
    Cert.Tail.ceSum o Y = Cert.ReferenceIdeal.ReadP.val_main_v71 (F := Ideal) X P Y := by
  funext i
  rw [eq_ix0 i, Cert.ReferenceIdeal.Sums.ce_total X P Y]
  unfold Cert.Tail.ceSum
  simp only [Host.reduceAdd, Ideal.hostReduceAdd_def]
  rw [Ideal.hostReduceAdd_total reducesTo_S16x24_S_d0_1 (fun b => b.elim0), constant_apply, Ideal.ofBits_zero_f32, zero_add]
  refine (sum_idx2 _).trans ?_
  refine Finset.sum_congr rfl fun b _ => Finset.sum_congr rfl fun h _ => ?_
  rw [mulf_apply, col0_at, entry_eq X P Y o ho b h 0, Cert.Tail.weight_eq]

end Cert.Bridge

end
-- ==== Proof.Algebraic.lean ====
/-
  The two idealized programs compute the same four numbers.

  The kernel program's four results are its later operations' values at the buffers the region leaves. There the
  result array holds, at (b, h, k), the sum over the five tiles and each tile's 8192 points of quantity k of point
  against box — the accumulator written back after the fifth tile —, and the two box arrays are as launched. The
  reference's three row sums over the 40960 points are the same sums regrouped tile by tile, and its weighted triple
  sum of the cross entropy is the weighted sum of the row sums, the weight being 0 or 1. Everything after those four
  arrays is one chain of operations on both sides. So each result of the reference, at arguments agreeing with the
  kernel program's, is the kernel program's.
-/
import proofs.«176227_j76828374991464_1_alg».proof.Defs
import proofs.«176227_j76828374991464_1_alg».proof.Proof.KIResults
import proofs.«176227_j76828374991464_1_alg».proof.Proof.KIValue
import proofs.«176227_j76828374991464_1_alg».proof.Proof.Bridge
import proofs.«176227_j76828374991464_1_alg».proof.Proof.TailChain
import proofs.«176227_j76828374991464_1_alg».proof.Proof.RefRead
import proofs.«176227_j76828374991464_1_alg».proof.Proof.Gen.Pre_finite_inputs

set_option maxRecDepth 16384
set_option maxHeartbeats 40000000

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Res

variable (m : (ℓ : Loc nD τ sig) → Buf (Elt Ideal) ℓ) (c : Dev nD)

/-- The points, the predicted boxes and the ground-truth boxes as launched. -/
abbrev X : (⟨S16x40960x9, .f32⟩ : BufTy).Contents (Elt Ideal) := m ((c.tc : Thread nD τ).loc main_arg0)
abbrev P : (⟨S16x24x2x3, .f32⟩ : BufTy).Contents (Elt Ideal) := m ((c.tc : Thread nD τ).loc main_arg1)
abbrev Y : (⟨S16x24x2x3, .f32⟩ : BufTy).Contents (Elt Ideal) := m ((c.tc : Thread nD τ).loc main_arg2)

/-- The kernel's result array as the later operations find it. -/
theorem out_at (b : Fin 16) (h : Fin 24) (k : Fin 4) :
    exitVal m c (Proc.devRef .tc main_v0) (ix3 b h k)
      = ∑ j : Fin 5, ∑ l : Fin 8192, Cert.Spec.term (X m c) (P m c) (Y m c) k b h (Cert.Spec.tilePt j l) := by
  rw [exitVal_v0]
  exact Cert.KernelIdeal.Val.final3_apply m c b h k

theorem total_eq : StableHlo.after hostOps1 (exitVal m c) (Proc.devRef .tc main_v60) = Cert.ReferenceIdeal.ReadP.val_main_v118 (F := Ideal) (X m c) (P m c) (Y m c) :=
  Cert.Tail.total_match (exitVal m c) (X m c) (P m c) (Y m c) (exitVal_arg1 m c) (exitVal_arg2 m c)
    (Cert.Bridge.col1_eq (X m c) (P m c) (Y m c) _ (out_at m c)) (Cert.Bridge.col2_eq (X m c) (P m c) (Y m c) _ (out_at m c))
    (Cert.Bridge.col3_eq (X m c) (P m c) (Y m c) _ (out_at m c)) (Cert.Bridge.ceSum_eq (X m c) (P m c) (Y m c) _ (out_at m c))

theorem l2_eq : StableHlo.after hostOps1 (exitVal m c) (Proc.devRef .tc main_v58) = Cert.ReferenceIdeal.ReadP.val_main_v116 (F := Ideal) (P m c) (Y m c) :=
  Cert.Tail.l2_match (exitVal m c) (P m c) (Y m c) (exitVal_arg1 m c) (exitVal_arg2 m c)

theorem ce_eq : StableHlo.after hostOps1 (exitVal m c) (Proc.devRef .tc main_v18) = Cert.ReferenceIdeal.ReadP.val_main_v72 (F := Ideal) (X m c) (P m c) (Y m c) :=
  Cert.Tail.ce_match (exitVal m c) (X m c) (P m c) (Y m c) (exitVal_arg2 m c)
    (Cert.Bridge.ceSum_eq (X m c) (P m c) (Y m c) _ (out_at m c))

theorem iou_eq : StableHlo.after hostOps1 (exitVal m c) (Proc.devRef .tc main_v30) = Cert.ReferenceIdeal.ReadP.val_main_v88 (F := Ideal) (X m c) (P m c) (Y m c) :=
  Cert.Tail.iou_match (exitVal m c) (X m c) (P m c) (Y m c) (exitVal_arg2 m c)
    (Cert.Bridge.col1_eq (X m c) (P m c) (Y m c) _ (out_at m c)) (Cert.Bridge.col2_eq (X m c) (P m c) (Y m c) _ (out_at m c))
    (Cert.Bridge.col3_eq (X m c) (P m c) (Y m c) _ (out_at m c))

end Cert.Proof.Alg

namespace Cert.Proof

open Idealize.ShloMosaic Idealize.ShloMosaic.TcCoe Idealize.SL.Sem

/-- From memories agreeing on the arguments both idealized programs run to the end with equal results. -/
theorem algebraic : Cert.algebraic_KernelIdeal_ReferenceIdeal := by
  intro m ρ m' ρ' _ hagree
  refine ⟨fun c => StableHlo.after Cert.KernelIdeal.Gen.hostOps1 (Cert.KernelIdeal.Res.exitVal m c) (Proc.devRef .tc Cert.KernelIdeal.main_v60),
    fun c => StableHlo.after Cert.KernelIdeal.Gen.hostOps1 (Cert.KernelIdeal.Res.exitVal m c) (Proc.devRef .tc Cert.KernelIdeal.main_v58),
    fun c => StableHlo.after Cert.KernelIdeal.Gen.hostOps1 (Cert.KernelIdeal.Res.exitVal m c) (Proc.devRef .tc Cert.KernelIdeal.main_v18),
    fun c => StableHlo.after Cert.KernelIdeal.Gen.hostOps1 (Cert.KernelIdeal.Res.exitVal m c) (Proc.devRef .tc Cert.KernelIdeal.main_v30),
    Cert.KernelIdeal.Res.run_results m ρ, ?_⟩
  refine (θ_run Cert.ReferenceIdeal.defs _ _).mono (fun _ h c =>
    ⟨(h c).1.trans ?_, (h c).2.1.trans ?_, (h c).2.2.1.trans ?_, (h c).2.2.2.1.trans ?_, (h c).2.2.2.2⟩)
    (Cert.ReferenceIdeal.ValueP.run (F := Ideal) m' ρ')
  · rw [Cert.ReferenceIdeal.ReadP.val_main_v118_eq, (hagree c).1, (hagree c).2.1, (hagree c).2.2]
    exact (Alg.total_eq m c).symm
  · rw [Cert.ReferenceIdeal.ReadP.val_main_v116_eq, (hagree c).2.1, (hagree c).2.2]
    exact (Alg.l2_eq m c).symm
  · rw [Cert.ReferenceIdeal.ReadP.val_main_v72_eq, (hagree c).1, (hagree c).2.1, (hagree c).2.2]
    exact (Alg.ce_eq m c).symm
  · rw [Cert.ReferenceIdeal.ReadP.val_main_v88_eq, (hagree c).1, (hagree c).2.1, (hagree c).2.2]
    exact (Alg.iou_eq m c).symm

end Cert.Proof

end
-- ==== Proof.lean ====
/-
  The certificate of the kernel program `Kernel` (one pipelined region that streams the 16 x 40960 points tile by tile
  and accumulates, per batch and box, four sums over the points; then 77 host operations) against its reference.

  The three frames: each kernel program's from its frame modules (the body run in its two control
  cases, the accumulator by recursion on the grid point, the launch followed by the later operations); the
  reference's from its host run. The idealization rewrote nothing, so `preserves` is trivial. `algebraic`: the two
  idealized programs' results are equal because the kernel's four accumulated sums are the reference's sums over the
  points regrouped by tile, the per-box 0/1 weight can be applied before or after summing, and everything after those
  sums is the same chain of operations.
-/
import proofs.«176227_j76828374991464_1_alg».proof.Defs
import proofs.«176227_j76828374991464_1_alg».proof.Proof.KFrame
import proofs.«176227_j76828374991464_1_alg».proof.Proof.KIFrame
import proofs.«176227_j76828374991464_1_alg».proof.Proof.Algebraic
import proofs.«176227_j76828374991464_1_alg».proof.Proof.Gen.Kernel
import proofs.«176227_j76828374991464_1_alg».proof.Proof.Gen.KernelIdeal
import proofs.«176227_j76828374991464_1_alg».proof.Proof.Gen.ReferenceIdeal
import proofs.«176227_j76828374991464_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no kernel: its frame is its host run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
